-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1536x2048 : Shape := ⟨3, ![8, 1536, 2048]⟩
abbrev S1024x1536x1 : Shape := ⟨3, ![1024, 1536, 1]⟩
abbrev S1024 : Shape := ⟨1, ![1024]⟩
abbrev S_ : Shape := ⟨0, ![]⟩

class Facts : Prop where
  bcast_S_S8x1536x2048 : S_.BroadcastsInDim S8x1536x2048 (![] : Fin 0 → Fin S8x1536x2048.rank)
  reducesTo_S8x1536x2048_S_d0_1_2 : S8x1536x2048.ReducesTo [0, 1, 2] S_
  h_S_ : 0 < S_.numel
  bcast_S_S1024x1536x1 : S_.BroadcastsInDim S1024x1536x1 (![] : Fin 0 → Fin S1024x1536x1.rank)
  reducesTo_S1024x1536x1_S_d0_1_2 : S1024x1536x1.ReducesTo [0, 1, 2] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x1536x2048 .f32) (main_arg1 : FVec F S1024x1536x1 .f32) (main_arg2 : FVec F S1024 .f32) : IVec S_ 1 :=
  let main_v0 : FVec F S8x1536x2048 .f32 := Host.absf main_arg0
  let main_cst : FVec F S_ .f32 := constant S_ .f32 0x7F800000#32
  let main_v1 : FVec F S8x1536x2048 .f32 := broadcastInDim S8x1536x2048 ![] bcast_S_S8x1536x2048 main_cst
  let main_v2 : IVec S8x1536x2048 1 := cmpf .olt main_v0 main_v1
  let main_c : IVec S_ 1 := constantI S_ 1 1#1
  let main_v3 : IVec S_ 1 := (fun x v => Host.reduce IntOp.andi x v reducesTo_S8x1536x2048_S_d0_1_2 h_S_) main_v2 main_c
  let main_v4 : FVec F S1024x1536x1 .f32 := Host.absf main_arg1
  let main_cst_0 : FVec F S_ .f32 := constant S_ .f32 0x7F800000#32
  let main_v5 : FVec F S1024x1536x1 .f32 := broadcastInDim S1024x1536x1 ![] bcast_S_S1024x1536x1 main_cst_0
  let main_v6 : IVec S1024x1536x1 1 := cmpf .olt main_v4 main_v5
  let main_c_1 : IVec S_ 1 := constantI S_ 1 1#1
  let main_v7 : IVec S_ 1 := (fun x v => Host.reduce IntOp.andi x v reducesTo_S1024x1536x1_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x1536x2048 : Shape := ⟨3, ![8, 1536, 2048]⟩
abbrev S1024x1536x1 : Shape := ⟨3, ![1024, 1536, 1]⟩
abbrev S1024 : Shape := ⟨1, ![1024]⟩
abbrev S1024x1536 : Shape := ⟨2, ![1024, 1536]⟩
abbrev S1024x1 : Shape := ⟨2, ![1024, 1]⟩
abbrev S8x1024x2048 : Shape := ⟨3, ![8, 1024, 2048]⟩
abbrev S1x1536x512 : Shape := ⟨3, ![1, 1536, 512]⟩
abbrev S1x1024x512 : Shape := ⟨3, ![1, 1024, 512]⟩
abbrev S1536x512 : Shape := ⟨2, ![1536, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x1536x2048, .f32⟩
  | .hbm, ⟨1, _⟩ => ⟨S1024x1536x1, .f32⟩
  | .hbm, ⟨2, _⟩ => ⟨S1024, .f32⟩
  | .hbm, ⟨3, _⟩ => ⟨S1024x1536, .f32⟩
  | .hbm, ⟨4, _⟩ => ⟨S1024x1536, .bf16⟩
  | .hbm, ⟨5, _⟩ => ⟨S1024x1, .f32⟩
  | .hbm, ⟨6, _⟩ => ⟨S8x1024x2048, .f32⟩
  | .local _ .vmem, ⟨0, _⟩ => ⟨S1x1536x512, .f32⟩
  | .local _ .vmem, ⟨1, _⟩ => ⟨S1x1536x512, .f32⟩
  | .local _ .vmem, ⟨2, _⟩ => ⟨S1024x1536, .bf16⟩
  | .local _ .vmem, ⟨3, _⟩ => ⟨S1024x1, .f32⟩
  | .local _ .vmem, ⟨4, _⟩ => ⟨S1x1024x512, .f32⟩
  | .local _ .vmem, ⟨5, _⟩ => ⟨S1x1024x512, .f32⟩
  | _, _ => ⟨S8x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1536x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x1536x1_S1024x1536 : S1024x1536x1.ShapeCasts S1024x1536
  bitsLt_bf16_f32 : FTy.bits .bf16 < FTy.bits .f32
  shapeCasts_S1024_S1024x1 : S1024.ShapeCasts S1024x1
  inb_S1x1536x512_S1x1536x512_0_0_0 : ∀ a, (![0, 0, 0] : Fin 3 → Nat) a + S1x1536x512.size a ≤ S1x1536x512.size a
  h_S1x1536x512 : 0 < S1x1536x512.numel
  shapeCasts_S1x1536x512_S1536x512 : S1x1536x512.ShapeCasts S1536x512
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x1536_S1536x512_S1024x512_1_0_0_1_n_n_wf : DotDims.WF S1024x1536 S1536x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1536x512.size a ≤ S8x1536x2048.size a
  hwx0_0 : ∀ i : grid0.Coords, EltTy.bits .f32 = 32 ∨ (Rect.block (s := S8x1536x2048) S1x1536x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S1024x1536.size a
  hwx0_1 : ∀ i : grid0.Coords, EltTy.bits .bf16 = 32 ∨ (Rect.block (s := S1024x1536) S1024x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x2048.size a
  hwx0_3 : ∀ i : grid0.Coords, EltTy.bits .f32 = 32 ∨ (Rect.block (s := S8x1024x2048) S1x1024x512.size (cc0_transform_3 i) (hinb0_3 i)).WholeWords (EltTy.packing .f32)

variable [Facts₀]

def dot_S1024x1536_S1536x512_S1024x512_1_0_0_1_n_n : DotDims S1024x1536 S1536x512 S1024x512 where
  lhsContracting := [1]
  rhsContracting := [0]
  lhsNonContracting := [0]
  rhsNonContracting := [1]
  lhsBatch := []
  rhsBatch := []
  wf := dot_S1024x1536_S1536x512_S1024x512_1_0_0_1_n_n_wf

abbrev win0_0 : Pipeline.Window sig grid0 :=
  Pipeline.Window.ofSpec (Memref.whole main_arg0) S1x1536x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1536x2048 : Shape := ⟨3, ![8, 1536, 2048]⟩
abbrev S1024x1536x1 : Shape := ⟨3, ![1024, 1536, 1]⟩
abbrev S1024 : Shape := ⟨1, ![1024]⟩
abbrev S1024x1536 : Shape := ⟨2, ![1024, 1536]⟩
abbrev S1024x1 : Shape := ⟨2, ![1024, 1]⟩
abbrev S8x1024x2048 : Shape := ⟨3, ![8, 1024, 2048]⟩
abbrev S1x512x384 : Shape := ⟨3, ![1, 512, 384]⟩
abbrev S1024x512 : Shape := ⟨2, ![1024, 512]⟩
abbrev S1x1024x384 : Shape := ⟨3, ![1, 1024, 384]⟩
abbrev S1024x384 : Shape := ⟨2, ![1024, 384]⟩
abbrev S512x384 : Shape := ⟨2, ![512, 384]⟩

abbrev nBuf : Space → Nat
  | .hbm => 6
  | .vmem => 8
  | .smem => 0
  | _ => 0

abbrev bufTy : (tb : Table) → Fin (tcTables nBuf tb) → BufTy
  | .hbm, ⟨0, _⟩ => ⟨S8x1536x2048, .f32⟩
  | .hbm, ⟨1, _⟩ => ⟨S1024x1536x1, .f32⟩
  | .hbm, ⟨2, _⟩ => ⟨S1024, .f32⟩
  | .hbm, ⟨3, _⟩ => ⟨S1024x1536, .f32⟩
  | .hbm, ⟨4, _⟩ => ⟨S1024x1, .f32⟩
  | .hbm, ⟨5, _⟩ => ⟨S8x1024x2048, .f32⟩
  | .local _ .vmem, ⟨0, _⟩ => ⟨S1x512x384, .f32⟩
  | .local _ .vmem, ⟨1, _⟩ => ⟨S1x512x384, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1x1024x384, .f32⟩
  | .local _ .vmem, ⟨6, _⟩ => ⟨S1x1024x384, .f32⟩
  | .local _ .vmem, ⟨7, _⟩ => ⟨S1024x384, .f32⟩
  | _, _ => ⟨S8x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![48, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024x1536x1_S1024x1536 : S1024x1536x1.ShapeCasts S1024x1536
  shapeCasts_S1024_S1024x1 : S1024.ShapeCasts S1024x1
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x384 : S1024x1.Broadcasts S1024x384
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  shapeCasts_S1024x384_S1x1024x384 : S1024x384.ShapeCasts S1x1024x384
  dot_S1024x512_S512x384_S1024x384_1_0_0_1_n_n_wf : DotDims.WF S1024x512 S512x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x512x384.size a < S8x1536x2048.size a
  hwx0_0 : ∀ i : grid0.Coords, EltTy.bits .f32 = 32 ∨ (Rect.unit (s := S8x1536x2048) (fun a => cc0_transform_0 i a * S1x512x384.size a) (fun a => (Pipeline.Clip.of (cc0_transform_0 i a) (S1x512x384.size a) (S8x1536x2048.size a)).extent (S1x512x384.size a)) fun a => Pipeline.Clip.inb (Pipeline.Clip.ok_of (hstart0_0 i a))).WholeWords (EltTy.packing .f32)
  hwxs0_0 : ∀ i : grid0.Coords, EltTy.bits .f32 = 32 ∨ (Rect.unit (s := S1x512x384) (fun _ => 0) (fun a => (Pipeline.Clip.of (cc0_transform_0 i a) (S1x512x384.size a) (S8x1536x2048.size a)).extent (S1x512x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x1536.size a
  hwx0_1 : ∀ i : grid0.Coords, EltTy.bits .f32 = 32 ∨ (Rect.block (s := S1024x1536) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024x384.size a < S8x1024x2048.size a
  hwx0_3 : ∀ i : grid0.Coords, EltTy.bits .f32 = 32 ∨ (Rect.unit (s := S8x1024x2048) (fun a => cc0_transform_3 i a * S1x1024x384.size a) (fun a => (Pipeline.Clip.of (cc0_transform_3 i a) (S1x1024x384.size a) (S8x1024x2048.size a)).extent (S1x1024x384.size a)) fun a => Pipeline.Clip.inb (Pipeline.Clip.ok_of (hstart0_3 i a))).WholeWords (EltTy.packing .f32)
  hwxs0_3 : ∀ i : grid0.Coords, EltTy.bits .f32 = 32 ∨ (Rect.unit (s := S1x1024x384) (fun _ => 0) (fun a => (Pipeline.Clip.of (cc0_transform_3 i a) (S1x1024x384.size a) (S8x1024x2048.size a)).extent (S1x1024x384.size a)) fun a => (Nat.zero_add _).trans_le (Pipeline.Clip.extent_le (Pipeline.Clip.ok_of (hstart0_3 i a)))).WholeWords (EltTy.packing .f32)

variable [Facts₀]

def dot_S1024x512_S512x384_S1024x384_1_0_0_1_n_n : DotDims S1024x512 S512x384 S1024x384 where
  lhsContracting := [1]
  rhsContracting := [0]
  lhsNonContracting := [0]
  rhsNonContracting := [1]
  lhsBatch := []
  rhsBatch := []
  wf := dot_S1024x512_S512x384_S1024x384_1_0_0_1_n_n_wf

abbrev win0_0 : Pipeline.Window sig grid0 :=
  Pipeline.Window.ofSpecClip (Memref.whole main_arg0) S1x512x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S1x1024x384.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.ConvSpec.lean ====
/-
  The pointwise (kernel size one) convolution with bias, as ONE function of the three argument arrays on the
  extended reals:  y[n, o, l] = (∑ c, w[o, c, 0] · x[n, c, l]) + b[o],  for x : [8, 1536, 2048], w : [1024, 1536, 1],
  b : [1024], y : [8, 1024, 2048].  Both programs are shown to end at this array.
-/
import Idealize.ShloMosaic.PureOps.Ideal
import Idealize.ShloMosaic.Lib.ValueIdx

noncomputable section

open scoped BigOperators

namespace Cert.Conv

open Idealize.ShloMosaic Idealize.ShloMosaic.ValueIdx

/-- The convolution's value at output index `i = (n, o, l)`: the sum over the 1536 input channels of the weight
    at `(o, c, 0)` times the signal at `(n, c, l)`, plus the bias at `o`. -/
def conv (x : (⟨3, ![8, 1536, 2048]⟩ : Shape).Idx → EReal) (w : (⟨3, ![1024, 1536, 1]⟩ : Shape).Idx → EReal)
    (b : (⟨1, ![1024]⟩ : Shape).Idx → EReal) : (⟨3, ![8, 1024, 2048]⟩ : Shape).Idx → EReal :=
  fun i => (∑ c : Fin 1536, w (ix3 (i 1) c (0 : Fin 1)) * x (ix3 (i 0) c (i 2))) + b (ix1 (i 1))

theorem conv_apply (x : (⟨3, ![8, 1536, 2048]⟩ : Shape).Idx → EReal) (w : (⟨3, ![1024, 1536, 1]⟩ : Shape).Idx → EReal)
    (b : (⟨1, ![1024]⟩ : Shape).Idx → EReal) (n : Fin 8) (o : Fin 1024) (l : Fin 2048) :
    conv x w b (ix3 n o l) = (∑ c : Fin 1536, w (ix3 o c (0 : Fin 1)) * x (ix3 n c l)) + b (ix1 o) := rfl

end Cert.Conv

end
-- ==== Proof.KernelPayload.lean ====
/-
  The kernel body's stored value, read at one index of its block.

  At one grid point the body holds a block X : [1, 1536, 512] of the signal, the whole weight matrix W : [1024, 1536]
  and the bias column B : [1024, 1].  It stores, at (u, o, l), the product row o of W times column l of X[0], plus
  B[o, 0]:   (∑ c, W[o, c] · X[0, c, l]) + B[o, 0].   A change of float format is the identity on the extended reals,
  the product accumulates into zero, and the bias column is repeated along the lanes.
-/
import proofs.«164156_g2000604510244575_pallasbulk_476_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-! ## The product's operand indices, axis by axis

The product contracts axis 1 of the left operand with axis 0 of the right one; the result's row is the left
operand's row and the result's column the right operand's column. -/

/-- The left operand's row is the result's row. -/
theorem lhs_axis0 (j : S1024x512.Idx) (k : dot_S1024x1536_S1536x512_S1024x512_1_0_0_1_n_n.contr.Idx) :
    ((dot_S1024x1536_S1536x512_S1024x512_1_0_0_1_n_n.lhsIdx j k) 0).val = (j 0).val := by
  unfold DotDims.lhsIdx
  rw [dif_neg (show ¬ (0 : Fin S1024x1536.rank) ∈ dot_S1024x1536_S1536x512_S1024x512_1_0_0_1_n_n.lhsBatch by decide),
    dif_pos (show (0 : Fin S1024x1536.rank) ∈ dot_S1024x1536_S1536x512_S1024x512_1_0_0_1_n_n.lhsNonContracting by decide)]
  rfl

/-- The left operand's column is the contraction position. -/
theorem lhs_axis1 (j : S1024x512.Idx) (k : dot_S1024x1536_S1536x512_S1024x512_1_0_0_1_n_n.contr.Idx) :
    ((dot_S1024x1536_S1536x512_S1024x512_1_0_0_1_n_n.lhsIdx j k) 1).val = (k ⟨0, by decide⟩).val :=
  dot_S1024x1536_S1536x512_S1024x512_1_0_0_1_n_n.lhsIdx_val_of_single (cl := (1 : Fin S1024x1536.rank)) rfl j k

/-- The right operand's row is the contraction position. -/
theorem rhs_axis0 (j : S1024x512.Idx) (k : dot_S1024x1536_S1536x512_S1024x512_1_0_0_1_n_n.contr.Idx) :
    ((dot_S1024x1536_S1536x512_S1024x512_1_0_0_1_n_n.rhsIdx j k) 0).val = (k ⟨0, by decide⟩).val :=
  dot_S1024x1536_S1536x512_S1024x512_1_0_0_1_n_n.rhsIdx_val_of_single (cr := (0 : Fin S1536x512.rank)) rfl j k

/-- The right operand's column is the result's column. -/
theorem rhs_axis1 (j : S1024x512.Idx) (k : dot_S1024x1536_S1536x512_S1024x512_1_0_0_1_n_n.contr.Idx) :
    ((dot_S1024x1536_S1536x512_S1024x512_1_0_0_1_n_n.rhsIdx j k) 1).val = (j 1).val := by
  unfold DotDims.rhsIdx
  rw [dif_neg (show ¬ (1 : Fin S1536x512.rank) ∈ dot_S1024x1536_S1536x512_S1024x512_1_0_0_1_n_n.rhsBatch by decide),
    dif_pos (show (1 : Fin S1536x512.rank) ∈ dot_S1024x1536_S1536x512_S1024x512_1_0_0_1_n_n.rhsNonContracting by decide)]
  rfl

/-! ## The product at an index -/

/-- The product of a [1024, 1536] by a [1536, 512] matrix into the zero accumulator, at (o, l), is the sum over the
    1536 contracted positions of the entries' products. -/
theorem product_apply (A : FVec Ideal S1024x1536 .bf16) (B : FVec Ideal S1536x512 .bf16) (o : Fin 1024) (l : Fin 512) :
    matmul dot_S1024x1536_S1536x512_S1024x512_1_0_0_1_n_n none A B (constant (F := Ideal) S1024x512 .f32 0x00000000#32) (ix2 o l)
      = ∑ c : Fin 1536, A (ix2 o c) * B (ix2 c l) := by
  show FloatOps.matmul dot_S1024x1536_S1536x512_S1024x512_1_0_0_1_n_n none A B (constant (F := Ideal) S1024x512 .f32 0x00000000#32) (ix2 o l) = _
  rw [Ideal.matmul_constant_zero_apply,
    ← Equiv.sum_comp (contrEquiv1 dot_S1024x1536_S1536x512_S1024x512_1_0_0_1_n_n 1536 rfl rfl).symm]
  refine Finset.sum_congr rfl fun c _ => ?_
  have hk := contrEquiv1_symm_val dot_S1024x1536_S1536x512_S1024x512_1_0_0_1_n_n 1536 rfl rfl c
  have hl : dot_S1024x1536_S1536x512_S1024x512_1_0_0_1_n_n.lhsIdx (ix2 o l) ((contrEquiv1 dot_S1024x1536_S1536x512_S1024x512_1_0_0_1_n_n 1536 rfl rfl).symm c) = ix2 o c := by
    funext a; apply Fin.ext
    match a with
    | ⟨0, _⟩ => exact lhs_axis0 _ _
    | ⟨1, _⟩ => exact (lhs_axis1 _ _).trans hk
  have hr : dot_S1024x1536_S1536x512_S1024x512_1_0_0_1_n_n.rhsIdx (ix2 o l) ((contrEquiv1 dot_S1024x1536_S1536x512_S1024x512_1_0_0_1_n_n 1536 rfl rfl).symm c) = ix2 c l := by
    funext a; apply Fin.ext
    match a with
    | ⟨0, _⟩ => exact (rhs_axis0 _ _).trans hk
    | ⟨1, _⟩ => exact rhs_axis1 _ _
  rw [hl, hr]

/-! ## The bias column along the lanes -/

/-- The bias column [1024, 1] repeated along the 512 lanes reads, at (o, l), the column's entry o. -/
theorem bias_lanes_apply (B : FVec Ideal S1024x1 .f32) (o : Fin 1024) (l : Fin 512) :
    broadcastTo S1024x512 B broadcasts_S1024x1_S1024x512 (ix2 o l) = B (ix2 o (0 : Fin 1)) :=
  broadcastTo_apply B broadcasts_S1024x1_S1024x512 (ix2 o l) (ix2 o (0 : Fin 1)) fun a =>
    match a with
    | ⟨0, _⟩ => rfl
    | ⟨1, _⟩ => rfl

/-! ## The stored value at an index -/

/-- What the body stores at (u, o, l) of its output block, from its three loaded blocks. -/
theorem stored_apply (X : Vec Ideal S1x1536x512 .f32) (W : Vec Ideal S1024x1536 .bf16) (B : Vec Ideal S1024x1 .f32)
    (u : Fin 1) (o : Fin 1024) (l : Fin 512) :
    k0_pay1 (F := Ideal) X W B (ix3 u o l)
      = (∑ c : Fin 1536, W (ix2 o c) * X (ix3 (0 : Fin 1) c l)) + B (ix2 o (0 : Fin 1)) := by
  unfold k0_pay1
  refine (shapeCast_ab_1ab_apply _ shapeCasts_S1024x512_S1x1024x512 u o l).trans ?_
  refine (addf_apply _ _ (ix2 o l)).trans ?_
  refine congrArg₂ (· + ·) ?_ ?_
  · refine (product_apply _ _ o l).trans ?_
    refine Finset.sum_congr rfl fun c _ => ?_
    refine congrArg₂ (· * ·) ?_ ?_
    · rw [shapeCast_self]
    · refine (truncf_apply _ bitsLt_bf16_f32 (ix2 c l)).trans ?_
      exact shapeCast_1ab_ab_apply X shapeCasts_S1x1536x512_S1536x512 c l
  · refine (bias_lanes_apply _ o l).trans ?_
    rw [shapeCast_self]

end Cert.KernelIdeal.Hand

end
-- ==== Proof.KernelValue.lean ====
/-
  The idealized kernel's result array is the convolution `Cert.Conv.conv` of its three arguments.

  The call runs over 32 grid points; point t holds batch n = t / 4 and lane block q = t % 4 (512 lanes).  It stages the
  signal's block (n, all 1536 channels, lanes 512 q …), the whole weight matrix [1024, 1536] (the weight with its unit
  axis dropped; a change of float format is the identity on the extended reals) and the bias column [1024, 1], and
  writes the output block (n, all 1024 channels, lanes 512 q …).  At (n, o, l) the stored value is
  (∑ c, w[o, c, 0] · x[n, c, l]) + b[o]: the convolution read through the block.  The 32 blocks tile the result.
-/
import proofs.«164156_g2000604510244575_pallasbulk_476_2_alg».proof.Proof.Gen.KernelIdeal.Value
import proofs.«164156_g2000604510244575_pallasbulk_476_2_alg».proof.Proof.ConvSpec
import proofs.«164156_g2000604510244575_pallasbulk_476_2_alg».proof.Proof.KernelPayload
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The three argument arrays, by their literal shapes -/

/-- The signal x : [8, 1536, 2048] as launched. -/
abbrev signal (c : Dev nD) : S8x1536x2048.Idx → EReal := m ((c.tc : Thread nD τ).loc main_arg0)
/-- The weight w : [1024, 1536, 1] as launched. -/
abbrev weight (c : Dev nD) : S1024x1536x1.Idx → EReal := m ((c.tc : Thread nD τ).loc main_arg1)
/-- The bias b : [1024] as launched. -/
abbrev bias (c : Dev nD) : S1024.Idx → EReal := m ((c.tc : Thread nD τ).loc main_arg2)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The arrays the host writes before the call

The weight matrix the call stages is the weight with its unit axis dropped (the change of float format is the
identity on the extended reals); the bias column is the bias with a unit axis added. -/

/-- The staged weight matrix at (o, c) is the weight at (o, c, 0). -/
theorem weight_matrix_apply (c : Dev nD) (o : Fin 1024) (cc : Fin 1536) :
    (V m c main_v1 : S1024x1536.Idx → EReal) (ix2 o cc) = weight m c (ix3 o cc (0 : Fin 1)) := by
  have e : (V m c main_v1 : S1024x1536.Idx → EReal)
      = truncf (F := Ideal) .bf16 (shapeCast S1024x1536 (weight m c) shapeCasts_S1024x1536x1_S1024x1536) bitsLt_bf16_f32 := by
    dsimp only [Gen.V, Gen.hostOps0]; after_results; rfl
  rw [e]
  refine (truncf_apply _ bitsLt_bf16_f32 (ix2 o cc)).trans ?_
  refine shapeCast_apply (s := S1024x1536x1) (t := S1024x1536) (weight m c) shapeCasts_S1024x1536x1_S1024x1536 (ix2 o cc) (ix3 o cc (0 : Fin 1)) ?_
  rw [Shape.rowMajor_val_three, Shape.rowMajor_val_two]
  show (o.val * 1536 + cc.val) * 1 + 0 = o.val * 1536 + cc.val
  omega

/-- The staged bias column at (o, 0) is the bias at o. -/
theorem bias_column_apply (c : Dev nD) (o : Fin 1024) (u : Fin 1) :
    (V m c main_v2 : S1024x1.Idx → EReal) (ix2 o u) = bias m c (ix1 o) := by
  have e : (V m c main_v2 : S1024x1.Idx → EReal) = shapeCast S1024x1 (bias m c) shapeCasts_S1024_S1024x1 := by
    dsimp only [Gen.V, Gen.hostOps0]; after_results; rfl
  rw [e]
  refine shapeCast_apply (s := S1024) (t := S1024x1) (bias m c) shapeCasts_S1024_S1024x1 (ix2 o u) (ix1 o) ?_
  rw [Shape.rowMajor_val_one, Shape.rowMajor_val_two]
  have hu : u.val = 0 := by omega
  show o.val = o.val * 1 + u.val
  omega

/-! ## One block of the result

Grid point t holds rows of batch n = t / 4 and the 512 lanes of lane block q = t % 4.  Whatever n and q are, if the
signal block is the signal read at (n, ·, 512 q + ·), the staged matrix and column are the weight and the bias, and
the output block sits at (n, ·, 512 q + ·), then the body stores the convolution read through the output block. -/

theorem stored_is_conv (x : S8x1536x2048.Idx → EReal) (w : S1024x1536x1.Idx → EReal) (b : S1024.Idx → EReal)
    (X : Vec Ideal S1x1536x512 .f32) (W : Vec Ideal S1024x1536 .bf16) (B : Vec Ideal S1024x1 .f32)
    (eX : S1x1536x512.Idx → S8x1536x2048.Idx) (eO : S1x1024x512.Idx → S8x1024x2048.Idx) (N Q : Nat)
    (hX : ∀ z, X z = x (eX z))
    (hW : ∀ (o : Fin 1024) (cc : Fin 1536), W (ix2 o cc) = w (ix3 o cc (0 : Fin 1)))
    (hB : ∀ o : Fin 1024, B (ix2 o (0 : Fin 1)) = b (ix1 o))
    (hX0 : ∀ z, (eX z 0).val = N + (z 0).val) (hX1 : ∀ z, (eX z 1).val = (z 1).val) (hX2 : ∀ z, (eX z 2).val = Q + (z 2).val)
    (hO0 : ∀ y, (eO y 0).val = N + (y 0).val) (hO1 : ∀ y, (eO y 1).val = (y 1).val) (hO2 : ∀ y, (eO y 2).val = Q + (y 2).val)
    (y : S1x1024x512.Idx) :
    k0_pay1 (F := Ideal) X W B y = Cert.Conv.conv x w b (eO y) := by
  obtain ⟨u, o, l, rfl⟩ : ∃ (u : Fin 1) (o : Fin 1024) (l : Fin 512), y = ix3 u o l := ⟨y 0, y 1, y 2, eq_ix3 y⟩
  have hu : u.val = 0 := by omega
  have e0 := hO0 (ix3 u o l)
  have e1 := hO1 (ix3 u o l)
  have e2 := hO2 (ix3 u o l)
  refine (stored_apply X W B u o l).trans ?_
  unfold Cert.Conv.conv
  refine congrArg₂ (· + ·) (Finset.sum_congr rfl fun cc _ => congrArg₂ (· * ·) ?_ ?_) ?_
  · refine (hW o cc).trans (congrArg w (funext fun a => Fin.ext ?_))
    match a with
    | ⟨0, _⟩ => exact e1.symm
    | ⟨1, _⟩ => rfl
    | ⟨2, _⟩ => rfl
  · refine (hX _).trans (congrArg x (funext fun a => Fin.ext ?_))
    match a with
    | ⟨0, _⟩ => exact (hX0 _).trans (by show N + 0 = _; rw [e0]; show N + 0 = N + u.val; omega)
    | ⟨1, _⟩ => exact hX1 _
    | ⟨2, _⟩ => exact (hX2 _).trans e2.symm
  · refine (hB o).trans (congrArg b (funext fun a => Fin.ext ?_))
    match a with
    | ⟨0, _⟩ => exact e1.symm

/-! ## The windows' block indices over the grid -/

/-- The signal's block moves with the output's on the batch and lane axes; the weight matrix and bias column are one
    block each; the output's blocks are 8 batches by 4 lane blocks. -/
theorem block_indices : ∀ t : Fin cfg0.N,
    win0_0.index t (0 : Fin 3) = win0_3.index t (0 : Fin 3)
    ∧ win0_0.index t (1 : Fin 3) = 0
    ∧ win0_0.index t (2 : Fin 3) = win0_3.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0
    ∧ win0_3.index t (0 : Fin 3) ≤ 7 ∧ win0_3.index t (2 : Fin 3) ≤ 3 :=
  (by decide +kernel : ∀ t : Fin grid0.N, _)

/-- Every batch and lane block is some grid point's. -/
theorem block_of_batch_lane : ∀ (n : Fin 8) (q : Fin 4), ∃ t : Fin cfg0.N, win0_3.index t = ![n.val, 0, q.val] :=
  (by decide +kernel : ∀ (n : Fin 8) (q : Fin 4), ∃ t : Fin grid0.N, win0_3.index t = ![n.val, 0, q.val])

/-! ## What a grid point writes back -/

/-- Point t writes back block t of the convolution of the three arguments. -/
theorem block_written (c : Dev nD) (t : Fin cfg0.N) :
    (dats m 0 c).flushed 3 t
      = ((cfg0.win 3).blk t).view.read (Elt Ideal) (Cert.Conv.conv (signal m c) (weight m c) (bias m c)) := by
  rw [Cert.KernelIdeal.Value.flushed3]
  unfold out0_3
  rw [View.canon_unit_zero zeros3]
  simp only [View.ld_unit_zero (S := S1x1536x512) zeros3, View.ld_unit_zero (S := S1024x1536) zeros2,
    View.ld_unit_zero (S := S1024x1) zeros2]
  obtain ⟨f00, f01, f02, f10, f11, f20, f21, f31, -, -⟩ := block_indices t
  funext y
  show k0_pay1 (F := Ideal) (iblk m c 0 t) (iblk m c 1 t) (iblk m c 2 t) y
    = Cert.Conv.conv (signal m c) (weight m c) (bias m c) (((cfg0.win 3).blk t).view.emb y)
  refine stored_is_conv (signal m c) (weight m c) (bias m c) (iblk m c 0 t) (iblk m c 1 t) (iblk m c 2 t)
    (((cfg0.win 0).blk t).view.emb) (((cfg0.win 3).blk t).view.emb) (win0_3.index t (0 : Fin 3) * 1) (win0_3.index t (2 : Fin 3) * 512)
    ?_ ?_ ?_ ?_ ?_ ?_ ?_ ?_ ?_ y
  · intro z
    show V m c main_arg0 (((cfg0.win 0).blk t).view.emb z) = signal m c (((cfg0.win 0).blk t).view.emb z)
    rw [V_main_arg0]
  · intro o cc
    show (V m c main_v1 : S1024x1536.Idx → EReal) (((cfg0.win 1).blk t).view.emb (ix2 o cc)) = _
    have he : ((cfg0.win 1).blk t).view.emb (ix2 o cc) = ix2 o cc := by
      funext a; apply Fin.ext
      match a with
      | ⟨0, _⟩ => show win0_1.index t (0 : Fin 2) * 1024 + 1 * o.val = o.val; omega
      | ⟨1, _⟩ => show win0_1.index t (1 : Fin 2) * 1536 + 1 * cc.val = cc.val; omega
    rw [he]
    exact weight_matrix_apply m c o cc
  · intro o
    show (V m c main_v2 : S1024x1.Idx → EReal) (((cfg0.win 2).blk t).view.emb (ix2 o (0 : Fin 1))) = _
    have he : ((cfg0.win 2).blk t).view.emb (ix2 o (0 : Fin 1)) = ix2 o (0 : Fin 1) := by
      funext a; apply Fin.ext
      match a with
      | ⟨0, _⟩ => show win0_2.index t (0 : Fin 2) * 1024 + 1 * o.val = o.val; omega
      | ⟨1, _⟩ => show win0_2.index t (1 : Fin 2) * 1 + 1 * 0 = 0; omega
    rw [he]
    exact bias_column_apply m c o 0
  · intro z; show win0_0.index t (0 : Fin 3) * 1 + 1 * (z 0).val = win0_3.index t (0 : Fin 3) * 1 + (z 0).val; omega
  · intro z; show win0_0.index t (1 : Fin 3) * 1536 + 1 * (z 1).val = (z 1).val; omega
  · intro z; show win0_0.index t (2 : Fin 3) * 512 + 1 * (z 2).val = win0_3.index t (2 : Fin 3) * 512 + (z 2).val; omega
  · intro z; show win0_3.index t (0 : Fin 3) * 1 + 1 * (z 0).val = win0_3.index t (0 : Fin 3) * 1 + (z 0).val; omega
  · intro z; show win0_3.index t (1 : Fin 3) * 1024 + 1 * (z 1).val = (z 1).val; omega
  · intro z; show win0_3.index t (2 : Fin 3) * 512 + 1 * (z 2).val = win0_3.index t (2 : Fin 3) * 512 + (z 2).val; omega

/-! ## The blocks tile the result -/

/-- An index of the result is in point t's block iff each coordinate is in the block's range on its axis. -/
theorem mem_block (t : Fin cfg0.N) (i : S8x1024x2048.Idx) :
    i ∈ ((cfg0.win 3).blk t).view.set
      ↔ ∀ a : Fin 3, win0_3.index t a * S1x1024x512.size a ≤ (i a).val ∧ (i a).val < win0_3.index t a * S1x1024x512.size a + S1x1024x512.size a := by
  show i ∈ ((View.whole main_v3).slice (win0_3.rect t)).set ↔ _
  rw [View.set_slice_whole, Rect.mem_set_unit]
  exact Iff.rfl

/-- Every index (n, o, l) of the result lies in the block of batch n and lane block l / 512. -/
theorem covered (i : S8x1024x2048.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 2048 := (i 2).isLt
  obtain ⟨t, ht⟩ := block_of_batch_lane ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- The result array after the run is the convolution of the three arguments. -/
theorem result_array (c : Dev nD) :
    (dats m 0 c).arrAt 3 cfg0.N = Cert.Conv.conv (signal m c) (weight m c) (bias m c) :=
  (dats m 0 c).arrAt_eq_of_cover 3 (Cert.Conv.conv (signal m c) (weight m c) (bias m c))
    (fun t _ => block_written m c t) covered

/-- The idealized kernel's run: it terminates with the result array at the convolution of the arguments, which
    are unchanged. -/
theorem run : θ_run (defs (F := Ideal)) (onTc (τ := τ) (main (F := Ideal))) ⟨m, fun _ => 0, ρ⟩ (fun r => ∀ c : Dev nD,
      r.2.mem ((c.tc : Thread nD τ).loc main_v3)
        = Cert.Conv.conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_array m c), (h c).2⟩)
    (Cert.KernelIdeal.Value.run_blocks m ρ)

end Cert.KernelIdeal.Hand

end
-- ==== Proof.RefBody.lean ====
import proofs.«164156_g2000604510244575_pallasbulk_476_2_alg».proof.Proof.Gen.ReferenceIdeal.Skeleton
import proofs.«164156_g2000604510244575_pallasbulk_476_2_alg».proof.Proof.Gen.ReferenceIdeal.Frame
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The reference kernel's body, case by case

The body accumulates one [1024, 512] · [512, 384] product per grid point into a [1024, 384] scratch: at the
first point of a reduction run it first zeroes the scratch, at the last it also stores scratch + bias to the
output block. Three control cases over the reduction coordinate `k = i 1 ∈ {0, 1, 2}`. -/

/-- The first branch's condition: the reduction coordinate is 0. -/
abbrev cond1 (i : grid0.Coords) : Prop := (Scalar.cmpi .ne (Scalar.extui (Scalar.cmpi .eq (BitVec.ofNat 32 (i 1).val) 0#32)) 0#32) = 1#1
/-- The second branch's condition: the reduction coordinate is the last. -/
abbrev cond2 (i : grid0.Coords) : Prop := k0_cond2 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

/-! ## Whole-buffer accesses, stated once over an abstract shape and payload -/

section Whole

variable {Val : EltTy → Type} [∀ e, Nonempty (Val e)] {S : Shape} {e : EltTy} {κ : Kind} {sp : Space}

/-- One store through the whole-buffer rectangle, read back, is its payload. -/
theorem read_writes_whole (v : View sig κ sp S e) (f : v.ty.Contents Val) {off : Fin S.rank → Nat} (h : off = fun _ => 0)
    (inb : ∀ a, off a + S.size a ≤ S.size a) (p : S.Idx → Val e) :
    v.read Val (v.writes Val f [(⟨Rect.unit off S.size inb, p⟩ : View.Piece Val S e)]) = p :=
  (View.read_writes_eq_canon v f _ (fun y => ⟨_, List.mem_singleton_self _, View.mem_set_unit_zero h inb y⟩)).trans
    (View.canon_unit_zero h inb p)

/-- A store through the whole-buffer rectangle made LAST, read back, is its payload whatever came before. -/
theorem read_writes_whole_cons (v : View sig κ sp S e) (f : v.ty.Contents Val) {off : Fin S.rank → Nat} (h : off = fun _ => 0)
    (inb : ∀ a, off a + S.size a ≤ S.size a) (p : S.Idx → Val e) (L : List (View.Piece Val S e)) :
    v.read Val (v.writes Val f ((⟨Rect.unit off S.size inb, p⟩ : View.Piece Val S e) :: L)) = p :=
  (View.read_writes_eq_canon v f _ (fun y => ⟨_, List.mem_cons_self, View.mem_set_unit_zero h inb y⟩)).trans
    (View.canon_cons_unit_zero h inb p L)

/-- A whole-buffer load of a whole memref at contents `X` reads `X`. -/
theorem readAt_whole (arg : Memref sig κ sp S e) (ha : arg.IsWhole) {off : Fin S.rank → Nat} (h : off = fun _ => 0)
    (inb : ∀ a, off a + S.size a ≤ S.size a) (X : S.Idx → Val e) :
    View.readAt Val arg.view (Rect.unit off S.size inb).toLoadRect (ha.unread X) = X := by
  rw [View.readAt_eq_ld, ha.read_unread, View.ld_unit_zero h]

end Whole

set_option maxHeartbeats 1000000 in
/-- A middle point (`k = 1`): the scratch gains the product of the weight block and the signal block. -/
theorem body_mid (c : Dev nD) (E : Set ℕ) (i : grid0.Coords)
    (arg2 : Memref sig .tc .vmem S1x512x384 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1x1024x384 .f32) (harg5 : arg5.IsWhole)
    (arg6 : Memref sig .tc .vmem S1024x384 .f32) (harg6 : arg6.IsWhole) (hc1 : ¬cond1 i) (hc2 : ¬cond2 i)
    (x0 : Vec F S1x512x384 .f32) (x1 : Vec F S1024x512 .f32) (xs : Vec F S1024x384 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
              ∗ owns (c : Thread nD τ) arg6 fullShare (k0_pay2 xs x1 x0)) -∗ K ⟨⟩))
      ⊢ wp frame (wpE (defs₀ (F := F)) Variants.none c none) E
          (cc0__pointwise_conv1d_ktiled_kernel i arg2 harg2 arg3 harg3 arg4 harg4 arg5 harg5 arg6 harg6) K := by
  simp only [cc0__pointwise_conv1d_ktiled_kernel_eq_skeleton]; unfold cc0__pointwise_conv1d_ktiled_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [read_writes_whole _ _ hz2, readAt_whole arg6 harg6 hz2, readAt_whole arg3 harg3 hz2, readAt_whole arg2 harg2 hz3]

set_option maxHeartbeats 1000000 in
/-- A first point (`k = 0`): the scratch, whatever it held, ends at the product added to the zero array. -/
theorem body_first (c : Dev nD) (E : Set ℕ) (i : grid0.Coords)
    (arg2 : Memref sig .tc .vmem S1x512x384 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1x1024x384 .f32) (harg5 : arg5.IsWhole)
    (arg6 : Memref sig .tc .vmem S1024x384 .f32) (harg6 : arg6.IsWhole) (hc1 : cond1 i) (hc2 : ¬cond2 i)
    (x0 : Vec F S1x512x384 .f32) (x1 : Vec F S1024x512 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
              ∗ owns (c : Thread nD τ) arg6 fullShare (k0_pay2 (k0_pay1 (F := F)) x1 x0)) -∗ K ⟨⟩))
      ⊢ wp frame (wpE (defs₀ (F := F)) Variants.none c none) E
          (cc0__pointwise_conv1d_ktiled_kernel i arg2 harg2 arg3 harg3 arg4 harg4 arg5 harg5 arg6 harg6) K := by
  simp only [cc0__pointwise_conv1d_ktiled_kernel_eq_skeleton]; unfold cc0__pointwise_conv1d_ktiled_kernel_skel
  unfold owns
  iintro ⟨⟨%f0, %hf0, H0⟩, ⟨%f1, %hf1, H1⟩, ⟨%d, %fs, %hfs, HS⟩, Hk⟩
  obtain rfl := harg2.eq_unread hf0; obtain rfl := harg3.eq_unread hf1; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [read_writes_whole_cons _ _ hz2, View.readCov_unit_zero (S := S1024x384) _ hz2, readAt_whole arg3 harg3 hz2, readAt_whole arg2 harg2 hz3]

set_option maxHeartbeats 1000000 in
/-- A last point (`k = 2`): the scratch gains the product, and the output block is overwritten with the new
    scratch plus the bias column broadcast along the lanes. -/
theorem body_last (c : Dev nD) (E : Set ℕ) (i : grid0.Coords)
    (arg2 : Memref sig .tc .vmem S1x512x384 .f32) (harg2 : arg2.IsWhole) (arg3 : Memref sig .tc .vmem S1024x512 .f32) (harg3 : arg3.IsWhole)
    (arg4 : Memref sig .tc .vmem S1024x1 .f32) (harg4 : arg4.IsWhole) (arg5 : Memref sig .tc .vmem S1x1024x384 .f32) (harg5 : arg5.IsWhole)
    (arg6 : Memref sig .tc .vmem S1024x384 .f32) (harg6 : arg6.IsWhole) (hc1 : ¬cond1 i) (hc2 : cond2 i)
    (x0 : Vec F S1x512x384 .f32) (x1 : Vec F S1024x512 .f32) (x2 : Vec F S1024x1 .f32) (xs : Vec F S1024x384 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
              ∗ owns (c : Thread nD τ) arg5 fullShare (k0_pay3 (k0_pay2 xs x1 x0) x2)
              ∗ owns (c : Thread nD τ) arg6 fullShare (k0_pay2 xs x1 x0)) -∗ K ⟨⟩))
      ⊢ wp frame (wpE (defs₀ (F := F)) Variants.none c none) E
          (cc0__pointwise_conv1d_ktiled_kernel i arg2 harg2 arg3 harg3 arg4 harg4 arg5 harg5 arg6 harg6) K := by
  simp only [cc0__pointwise_conv1d_ktiled_kernel_eq_skeleton]; unfold cc0__pointwise_conv1d_ktiled_kernel_skel
  unfold owns
  iintro ⟨⟨%f0, %hf0, H0⟩, ⟨%f1, %hf1, H1⟩, ⟨%f2, %hf2, H2⟩, ⟨%d, %f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_writes_whole _ _ hz3, View.readCov_unit_zero (S := S1024x384) _ hz2, readAt_whole arg6 harg6 hz2, readAt_whole arg4 harg4 hz2,
      readAt_whole arg3 harg3 hz2, readAt_whole arg2 harg2 hz3]
  iexists _; isplitr
  swap; · iexact HS
  ipureintro
  sl_unfold_words
  rw [read_writes_whole _ _ hz2, readAt_whole arg6 harg6 hz2, readAt_whole arg3 harg3 hz2, readAt_whole arg2 harg2 hz3]

end Cert.ReferenceIdeal.Hand

end
-- ==== Proof.RefPayload.lean ====
/-
  The reference kernel's three payloads read at an index, at the ideal values (a float an extended
  real). The body accumulates, over the three grid steps along the contraction, one [1024, 512] block of
  the weights times one [512, 384] block of the input into a [1024, 384] accumulator:
    • the first payload is the zero the accumulator starts from;
    • the second is the accumulator plus the block product: at (o, l) it adds Σ_k w[o, k] · x[0, k, l];
    • the third is the accumulator plus the bias column broadcast along the lanes, stored as a [1, 1024, 384] block.
  The shape casts in them are identities or drop / add a leading unit axis.
-/
import proofs.«164156_g2000604510244575_pallasbulk_476_2_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen

/-! ## The block product's operand indices, axis by axis

The product contracts the left operand's axis 1 with the right operand's axis 0; the left operand's axis 0
is the result's axis 0 and the right operand's axis 1 is the result's axis 1. -/

/-- The left operand's row is the result's row. -/
theorem lhs_0 (i : S1024x384.Idx) (q : dot_S1024x512_S512x384_S1024x384_1_0_0_1_n_n.contr.Idx) :
    (dot_S1024x512_S512x384_S1024x384_1_0_0_1_n_n.lhsIdx i q 0).val = (i 0).val := by
  unfold DotDims.lhsIdx
  rw [dif_neg (show ¬(0 : Fin S1024x512.rank) ∈ dot_S1024x512_S512x384_S1024x384_1_0_0_1_n_n.lhsBatch by decide),
    dif_pos (show (0 : Fin S1024x512.rank) ∈ dot_S1024x512_S512x384_S1024x384_1_0_0_1_n_n.lhsNonContracting by decide)]
  rfl

/-- The left operand's column is the contraction position. -/
theorem lhs_1 (i : S1024x384.Idx) (q : dot_S1024x512_S512x384_S1024x384_1_0_0_1_n_n.contr.Idx) :
    (dot_S1024x512_S512x384_S1024x384_1_0_0_1_n_n.lhsIdx i q 1).val = (q ⟨0, by decide⟩).val :=
  dot_S1024x512_S512x384_S1024x384_1_0_0_1_n_n.lhsIdx_val_of_single rfl i q

/-- The right operand's row is the contraction position. -/
theorem rhs_0 (i : S1024x384.Idx) (q : dot_S1024x512_S512x384_S1024x384_1_0_0_1_n_n.contr.Idx) :
    (dot_S1024x512_S512x384_S1024x384_1_0_0_1_n_n.rhsIdx i q 0).val = (q ⟨0, by decide⟩).val :=
  dot_S1024x512_S512x384_S1024x384_1_0_0_1_n_n.rhsIdx_val_of_single rfl i q

/-- The right operand's column is the result's column. -/
theorem rhs_1 (i : S1024x384.Idx) (q : dot_S1024x512_S512x384_S1024x384_1_0_0_1_n_n.contr.Idx) :
    (dot_S1024x512_S512x384_S1024x384_1_0_0_1_n_n.rhsIdx i q 1).val = (i 1).val := by
  unfold DotDims.rhsIdx
  rw [dif_neg (show ¬(1 : Fin S512x384.rank) ∈ dot_S1024x512_S512x384_S1024x384_1_0_0_1_n_n.rhsBatch by decide),
    dif_pos (show (1 : Fin S512x384.rank) ∈ dot_S1024x512_S512x384_S1024x384_1_0_0_1_n_n.rhsNonContracting by decide)]
  rfl

/-- The block product into the zero accumulator, at (o, l): Σ_k lhs[o, k] · rhs[k, l]. -/
theorem matmul_zero_apply (lhs : FVec Ideal S1024x512 .f32) (rhs : FVec Ideal S512x384 .f32) (o : Fin 1024) (l : Fin 384) :
    matmul dot_S1024x512_S512x384_S1024x384_1_0_0_1_n_n none lhs rhs (constant (F := Ideal) S1024x384 .f32 0x00000000#32) (ix2 o l)
      = ∑ k : Fin 512, lhs (ix2 o k) * rhs (ix2 k l) := by
  simp only [matmul]
  rw [Ideal.matmul_constant_zero_apply, ← Equiv.sum_comp (contrEquiv1 dot_S1024x512_S512x384_S1024x384_1_0_0_1_n_n 512 rfl rfl).symm]
  refine Finset.sum_congr rfl fun k _ => ?_
  have hk := contrEquiv1_symm_val dot_S1024x512_S512x384_S1024x384_1_0_0_1_n_n 512 rfl rfl k
  have el : dot_S1024x512_S512x384_S1024x384_1_0_0_1_n_n.lhsIdx (ix2 o l) ((contrEquiv1 dot_S1024x512_S512x384_S1024x384_1_0_0_1_n_n 512 rfl rfl).symm k) = ix2 o k :=
    funext fun a => Fin.ext (by
      match a with
      | ⟨0, _⟩ => exact lhs_0 _ _
      | ⟨1, _⟩ => exact (lhs_1 _ _).trans hk)
  have er : dot_S1024x512_S512x384_S1024x384_1_0_0_1_n_n.rhsIdx (ix2 o l) ((contrEquiv1 dot_S1024x512_S512x384_S1024x384_1_0_0_1_n_n 512 rfl rfl).symm k) = ix2 k l :=
    funext fun a => Fin.ext (by
      match a with
      | ⟨0, _⟩ => exact (rhs_0 _ _).trans hk
      | ⟨1, _⟩ => exact rhs_1 _ _)
  rw [el, er]

/-! ## The payloads -/

/-- The accumulator's initial value: zero everywhere. -/
theorem pay1_apply (j : S1024x384.Idx) : (k0_pay1 (F := Ideal)) j = (0 : EReal) := by
  unfold k0_pay1
  rw [shapeCast_self]
  exact Ideal.ofBits_zero_f32

/-- One accumulation step: the accumulator plus the block product, at (o, l). -/
theorem pay2_apply (a : Vec Ideal S1024x384 .f32) (w : Vec Ideal S1024x512 .f32) (x : Vec Ideal S1x512x384 .f32)
    (o : Fin 1024) (l : Fin 384) :
    k0_pay2 a w x (ix2 o l) = a (ix2 o l) + ∑ k : Fin 512, w (ix2 o k) * x (ix3 (0 : Fin 1) k l) := by
  unfold k0_pay2
  rw [shapeCast_self, shapeCast_self, addf_apply, matmul_zero_apply]
  refine congrArg (a (ix2 o l) + ·) (Finset.sum_congr rfl fun k _ => ?_)
  rw [shapeCast_1ab_ab_apply]

/-- The last step's result: the accumulator plus the bias of its row, stored as a [1, 1024, 384] block. -/
theorem pay3_apply (a : Vec Ideal S1024x384 .f32) (b : Vec Ideal S1024x1 .f32) (o : Fin 1024) (l : Fin 384) :
    k0_pay3 a b (ix3 (0 : Fin 1) o l) = a (ix2 o l) + b (ix2 o (0 : Fin 1)) := by
  unfold k0_pay3
  rw [shapeCast_ab_1ab_apply, addf_apply, shapeCast_self]
  refine congrArg (a (ix2 o l) + ·) ?_
  refine broadcastTo_apply b broadcasts_S1024x1_S1024x384 (ix2 o l) (ix2 o (0 : Fin 1)) fun ax => ?_
  match ax with
  | ⟨0, _⟩ => rfl
  | ⟨1, _⟩ => rfl

end Cert.ReferenceIdeal.Hand

end
-- ==== Proof.RefStep.lean ====
/-
  Agreement on the valid columns.  The last block of the lane axis overhangs the arrays, so the signal's staging
  buffer holds unnamed words in its trailing lanes and so does everything computed from them.  The contraction
  runs over the channel axis only: a column of the accumulator depends on the same column of the signal block
  and on nothing else of it.  So two signal blocks that agree on the first `n` lanes give accumulators that
  agree on the first `n` columns, and output blocks that agree there.
-/
import proofs.«164156_g2000604510244575_pallasbulk_476_2_alg».proof.Proof.RefPayload
import Idealize.ShloMosaic.Lib.ValueIdx

noncomputable section

open scoped BigOperators

namespace Cert.ReferenceIdeal.Hand

open Idealize.ShloMosaic Idealize.ShloMosaic.ValueIdx Cert.ReferenceIdeal Cert.ReferenceIdeal.Gen

/-- Two [1024, 384] arrays agree on the columns below `n`. -/
def AgreeCols (n : Nat) (f g : Vec Ideal S1024x384 .f32) : Prop := ∀ j : S1024x384.Idx, (j 1).val < n → f j = g j

/-- Two [1, 512, 384] blocks agree on the lanes below `n`. -/
def AgreeLanes (n : Nat) (f g : Vec Ideal S1x512x384 .f32) : Prop := ∀ j : S1x512x384.Idx, (j 2).val < n → f j = g j

theorem AgreeCols.rfl' (n : Nat) (f : Vec Ideal S1024x384 .f32) : AgreeCols n f f := fun _ _ => rfl

theorem AgreeCols.mono {n n' : Nat} (h : n' ≤ n) {f g : Vec Ideal S1024x384 .f32} (hfg : AgreeCols n f g) : AgreeCols n' f g :=
  fun j hj => hfg j (Nat.lt_of_lt_of_le hj h)

/-- One accumulation step respects agreement on the valid columns. -/
theorem pay2_agree {n : Nat} {a a' : Vec Ideal S1024x384 .f32} (w : Vec Ideal S1024x512 .f32) {x x' : Vec Ideal S1x512x384 .f32}
    (ha : AgreeCols n a a') (hx : AgreeLanes n x x') : AgreeCols n (k0_pay2 a w x) (k0_pay2 a' w x') := by
  intro j hj
  obtain ⟨o, l, rfl⟩ : ∃ (o : Fin 1024) (l : Fin 384), j = ix2 o l := ⟨j 0, j 1, eq_ix2 j⟩
  -- column l of the step is a[o, l] + Σ_k w[o, k] · x[0, k, l]: it reads column l of a and lane l of x only
  rw [pay2_apply, pay2_apply, ha (ix2 o l) hj]
  refine congrArg (a' (ix2 o l) + ·) (Finset.sum_congr rfl fun k _ => ?_)
  rw [hx (ix3 (0 : Fin 1) k l) hj]

/-- The output block, on the valid lanes, depends on the accumulator's valid columns only. -/
theorem pay3_agree {n : Nat} {a a' : Vec Ideal S1024x384 .f32} (b : Vec Ideal S1024x1 .f32) (ha : AgreeCols n a a')
    (j : S1x1024x384.Idx) (hj : (j 2).val < n) : k0_pay3 a b j = k0_pay3 a' b j := by
  obtain ⟨u, o, l, rfl⟩ : ∃ (u : Fin 1) (o : Fin 1024) (l : Fin 384), j = ix3 u o l := ⟨j 0, j 1, j 2, eq_ix3 j⟩
  obtain rfl : u = 0 := Subsingleton.elim _ _
  -- lane l of the output block is a[o, l] + b[o, 0]: it reads column l of a only
  rw [pay3_apply, pay3_apply, ha (ix2 o l) hj]

end Cert.ReferenceIdeal.Hand

end
-- ==== Proof.RefData.lean ====
import proofs.«164156_g2000604510244575_pallasbulk_476_2_alg».proof.Proof.RefBody
import proofs.«164156_g2000604510244575_pallasbulk_476_2_alg».proof.Proof.RefStep

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The reference's pipeline: its proof data and the body obligation

Grid point `t = 3·q + k`: `q` runs over the 8 · 6 (batch, lane block) pairs, `k` over the three channel blocks
of 512. The lane blocks are 384 wide over 2048 lanes: the sixth overhangs the arrays and only its first 128
lanes are moved. The scratch accumulates over `k`; the output block is stored at `k = 2` and written back there. -/

local notation "𝕄" => MT nD τ sig Unit (Elt Ideal) ℕ (UR sig nD τ) ℕ

variable (m : (ℓ : Loc nD τ sig) → Buf (Elt Ideal) ℓ) (ρ : Dev nD → PrngReg)

/-! ## Facts decided over the grid -/

/-- The first branch is taken exactly at the first point of each run of three. -/
theorem hcond1 : ∀ t : Fin cfg0.N, cond1 (grid0.coords t) ↔ t.val % 3 = 0 :=
  (by decide +kernel : ∀ t : Fin grid0.N, cond1 (grid0.coords t) ↔ t.val % 3 = 0)
/-- The second branch is taken exactly at the last. -/
theorem hcond2 : ∀ t : Fin cfg0.N, cond2 (grid0.coords t) ↔ t.val % 3 = 2 :=
  (by decide +kernel : ∀ t : Fin grid0.N, cond2 (grid0.coords t) ↔ t.val % 3 = 2)
/-- The output window is idle exactly where the second branch is not taken. -/
theorem idle3_iff : ∀ t : Fin cfg0.N, cfg0.idle 3 (grid0.coords t) = true ↔ ¬ t.val % 3 = 2 :=
  (by decide +kernel : ∀ t : Fin grid0.N, cfg0.idle 3 (grid0.coords t) = true ↔ ¬ t.val % 3 = 2)

/-- The number of lanes the transfers move at point `t`: 128 in the overhanging sixth lane block, else 384. -/
def vcols (t : Nat) : Nat := if (t / 3) % 6 = 5 then 128 else 384

theorem xsize0 : ∀ t : Fin cfg0.N, win0_0.xsize (grid0.coords t) 0 = 1 ∧ win0_0.xsize (grid0.coords t) 1 = 512
    ∧ win0_0.xsize (grid0.coords t) 2 = vcols t.val :=
  (by decide +kernel : ∀ t : Fin grid0.N, win0_0.xsize (grid0.coords t) 0 = 1 ∧ win0_0.xsize (grid0.coords t) 1 = 512
    ∧ win0_0.xsize (grid0.coords t) 2 = vcols t.val)
theorem xsize3 : ∀ t : Fin cfg0.N, win0_3.xsize (grid0.coords t) 0 = 1 ∧ win0_3.xsize (grid0.coords t) 1 = 1024
    ∧ win0_3.xsize (grid0.coords t) 2 = vcols t.val :=
  (by decide +kernel : ∀ t : Fin grid0.N, win0_3.xsize (grid0.coords t) 0 = 1 ∧ win0_3.xsize (grid0.coords t) 1 = 1024
    ∧ win0_3.xsize (grid0.coords t) 2 = vcols t.val)

theorem vcols_pred {n : Nat} (h : ¬ (n + 1) % 3 = 0) : vcols n = vcols (n + 1) := by
  unfold vcols
  have : n / 3 = (n + 1) / 3 := by omega
  rw [this]

/-! ## The blocks -/

/-- The signal's block at point `t`: its part inside the array. -/
abbrev xblk (c : Dev nD) (t : Fin cfg0.N) : (win0_0.xblock (grid0.coords t)).Idx → Elt Ideal .f32 := iblk m c 0 t
/-- The weight's block at point `t`. -/
abbrev wblk (c : Dev nD) (t : Fin cfg0.N) : Vec Ideal S1024x512 .f32 := iblk m c 1 t
/-- The bias column (one block, the whole array). -/
abbrev bblk (c : Dev nD) (t : Fin cfg0.N) : Vec Ideal S1024x1 .f32 := iblk m c 2 t

/-- The signal's block filled out to the staging buffer's shape with zeros past the array's end. -/
def xfill (c : Dev nD) (t : Fin cfg0.N) : Vec Ideal S1x512x384 .f32 :=
  win0_0.fill (grid0.coords t) (fun _ => (0 : EReal)) (xblk m c t)

/-- Filling the block out with anything gives a buffer that agrees with `xfill` on the lanes the fetch moved. -/
theorem fill_agree (c : Dev nD) (t : Fin cfg0.N) (d : S1x512x384.Idx → Elt Ideal .f32) :
    AgreeLanes (vcols t.val) (win0_0.fill (grid0.coords t) d (xblk m c t)) (xfill m c t) := by
  intro j hj
  have hx := xsize0 t
  have hmv : win0_0.moved (grid0.coords t) j = true := by
    rw [Window.moved_iff]
    intro a
    match a with
    | ⟨0, _⟩ => have := (j 0).isLt; show (j 0).val < win0_0.xsize (grid0.coords t) 0; rw [hx.1]; exact this
    | ⟨1, _⟩ => have := (j 1).isLt; show (j 1).val < win0_0.xsize (grid0.coords t) 1; rw [hx.2.1]; exact this
    | ⟨2, _⟩ => show (j 2).val < win0_0.xsize (grid0.coords t) 2; rw [hx.2.2]; exact hj
  unfold xfill Window.fill
  rw [dif_pos hmv, dif_pos hmv]

/-! ## What the scratch holds after each point -/

/-- The accumulator after point `n`, over zero-filled signal blocks: the product at a first point, the product
    added to what the point before left elsewhere. -/
def accAt (c : Dev nD) : (n : ℕ) → n < cfg0.N → Vec Ideal S1024x384 .f32
  | 0, hn => k0_pay2 (k0_pay1 (F := Ideal)) (wblk m c ⟨0, hn⟩) (xfill m c ⟨0, hn⟩)
  | n + 1, hn =>
    if (n + 1) % 3 = 0 then k0_pay2 (k0_pay1 (F := Ideal)) (wblk m c ⟨n + 1, hn⟩) (xfill m c ⟨n + 1, hn⟩)
    else k0_pay2 (accAt c n (Nat.lt_of_succ_lt hn)) (wblk m c ⟨n + 1, hn⟩) (xfill m c ⟨n + 1, hn⟩)

theorem accAt_first (c : Dev nD) (t : Fin cfg0.N) (h : t.val % 3 = 0) :
    accAt m c t.val t.isLt = k0_pay2 (k0_pay1 (F := Ideal)) (wblk m c t) (xfill m c t) := by
  obtain ⟨n, hn⟩ := t
  cases n with
  | zero => rfl
  | succ n => exact if_pos h

theorem accAt_next (c : Dev nD) (t : Fin cfg0.N) (h : ¬ t.val % 3 = 0) :
    accAt m c t.val t.isLt
      = k0_pay2 (accAt m c (t.val - 1) (Nat.lt_of_le_of_lt (Nat.sub_le _ _) t.isLt)) (wblk m c t) (xfill m c t) := by
  obtain ⟨n, hn⟩ := t
  cases n with
  | zero => exact absurd (Nat.zero_mod _) h
  | succ n => exact if_neg h

/-- The scratch operand as a memref. -/
abbrev scM : Memref sig .tc .vmem S1024x384 .f32 := Memref.whole cc0_scratch0

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch holds anything; afterwards it
    holds SOME contents that agree with `accAt` of the point before on the valid columns. -/
def PhiS (c : Dev nD) : (n : ℕ) → n ≤ cfg0.N → sProp 𝕄
  | 0, _ => Pipeline.ΦA spec0 c
  | n + 1, hn => iprop(iprop(∃ S, ⌜AgreeCols (vcols n) S (accAt m c n hn)⌝ ∗ owns (c : Thread nD τ) scM fullShare S) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ S, ⌜AgreeCols (vcols n) S (accAt m c n hn)⌝ ∗ owns (c : Thread nD τ) scM fullShare S) ∗ (∃ r, prngReg c r)) := rfl

theorem PhiS_pos (c : Dev nD) (n : ℕ) (h : n ≤ cfg0.N) (hz : n ≠ 0) :
    PhiS m c n h = iprop(iprop(∃ S, ⌜AgreeCols (vcols (n - 1)) S (accAt m c (n - 1) (by omega))⌝ ∗ owns (c : Thread nD τ) scM fullShare S) ∗ (∃ r, prngReg c r)) := by
  cases n with
  | zero => exact absurd rfl hz
  | succ n => rfl

/-! ## The proof data -/

/-- The arrays as the region finds them; after the body the signal's buffer at its zero-filled block (the window
    is loose: only the moved lanes are stated), the weight's and the bias's at their blocks, the output's at the
    accumulator plus the bias column; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => k0_pay3 (accAt m c t.val t.isLt) (bblk m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay3 (accAt m c t.val t.isLt) (bblk m c t) := by dsimp only [dats]

/-- The signal's buffer as the body finds it: just fetched, its block on the moved lanes, `d` elsewhere. -/
theorem before0_0 (c : Dev nD) (t : Fin cfg0.N) (d) :
    (dats m 0 c).before 0 t d = win0_0.fill (grid0.coords t) d (xblk m c t) := by
  unfold Dat.before; rw [if_pos (fetch0_0 t)]; unfold Dat.fetched Dat.blockOf xblk iblk; rw [A_eq]; try rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

theorem vcols_prev (t : Nat) (ht : ¬ t % 3 = 0) : vcols (t - 1) = vcols t := by
  unfold vcols
  have : (t - 1) / 3 = t / 3 := by omega
  rw [this]

/-- What the loose obligation states of the signal's buffer: its block on the moved lanes. -/
theorem leaves0 (c : Dev nD) (t : Fin cfg0.N) : (dats m 0 c).leaves 0 t
    = iprop(∃ d, owns (c : Thread nD τ) (st0_0 t) fullShare (win0_0.fill (grid0.coords t) d (win0_0.cut (grid0.coords t) ((dats m 0 c).after 0 t)))) := rfl
theorem leaves1 (c : Dev nD) (t : Fin cfg0.N) : (dats m 0 c).leaves 1 t = owns (c : Thread nD τ) (st0_1 t) fullShare ((dats m 0 c).after 1 t) := rfl
theorem leaves2 (c : Dev nD) (t : Fin cfg0.N) : (dats m 0 c).leaves 2 t = owns (c : Thread nD τ) (st0_2 t) fullShare ((dats m 0 c).after 2 t) := rfl
/-- At a last point the output's buffer is stated on the moved lanes. -/
theorem leaves3_live (c : Dev nD) (t : Fin cfg0.N) (h : t.val % 3 = 2) : (dats m 0 c).leaves 3 t
    = iprop(∃ d, owns (c : Thread nD τ) (st0_3 t) fullShare (win0_3.fill (grid0.coords t) d (win0_3.cut (grid0.coords t) ((dats m 0 c).after 3 t)))) := by
  have hi : cfg0.idle 3 (cfg0.grid.coords t) = false := by
    cases hb : cfg0.idle 3 (cfg0.grid.coords t)
    · rfl
    · exact absurd h ((idle3_iff t).mp hb)
  unfold Dat.leaves; rw [hi]
/-- Elsewhere the output's buffer is handed back as found. -/
theorem leaves3_idle (c : Dev nD) (t : Fin cfg0.N) (h : ¬ t.val % 3 = 2) : (dats m 0 c).leaves 3 t
    = iprop(∃ d, owns (c : Thread nD τ) (st0_3 t) fullShare ((dats m 0 c).before 3 t d)) :=
  Dat.leaves_idle (dats m 0 c) 3 t ((idle3_iff t).mpr h) (by
    cases hb : (cfg0.win 3).flush t
    · rfl
    · exact absurd ((flush0_3 t).mp hb) h)

theorem cut_after0 (c : Dev nD) (t : Fin cfg0.N) : win0_0.cut (grid0.coords t) ((dats m 0 c).after 0 t) = xblk m c t := by
  rw [after0_0]; exact win0_0.cut_fill _ _ _

/-- A buffer that agrees with `Y` on the moved lanes is `Y`'s moved part filled out with something. -/
theorem owns_fill_of_cut_eq (c : Dev nD) (t : Fin cfg0.N) (X Y : S1x1024x384.Idx → Elt Ideal .f32)
    (h : win0_3.cut (grid0.coords t) X = win0_3.cut (grid0.coords t) Y) :
    owns (c : Thread nD τ) (st0_3 t) fullShare X
      ⊢ (iprop(∃ d, owns (c : Thread nD τ) (st0_3 t) fullShare (win0_3.fill (grid0.coords t) d (win0_3.cut (grid0.coords t) Y))) : sProp 𝕄) := by
  iintro H; iexists X; rw [win0_3.fill_congr_cut _ h]; iexact H

/-- The output block on the moved lanes depends on the accumulator's valid columns only. -/
theorem cut_pay3 (c : Dev nD) (t : Fin cfg0.N) (A A' : Vec Ideal S1024x384 .f32) (b : Vec Ideal S1024x1 .f32)
    (hA : AgreeCols (vcols t.val) A A') :
    win0_3.cut (grid0.coords t) (k0_pay3 A b) = win0_3.cut (grid0.coords t) (k0_pay3 A' b) := by
  funext j
  refine pay3_agree b hA _ ?_
  show (j 2).val < vcols t.val
  have := (j 2).isLt
  rw [← (xsize3 t).2.2]; exact this

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4000000 in
/-- The body at any point, by the three cases of the reduction coordinate. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, after0_1, after0_2, cut_after0, PhiS_castSucc]
  have hN : t.val < 144 := lt_of_lt_of_eq t.isLt (show cfg0.N = 144 from N_0)
  by_cases h0 : t.val % 3 = 0
  · -- a first point: the scratch is zeroed, then gains the product
    have h2 : ¬ t.val % 3 = 2 := by omega
    rw [leaves3_idle m c t h2]
    by_cases hz : t.val = 0
    · rw [PhiS_zero m c _ _ hz, PhiA_eq]
      iintro ⟨⟨HS, Hg⟩, Ho, ⟨%d0, H0⟩, ⟨%d1, H1⟩, ⟨%d2, H2⟩, H3⟩
      iapply (body_first (F := Ideal) c Set.univ (grid0.coords t) _ _ _ _ _ _ _ _ _ _ ((hcond1 t).mpr h0) (fun h => h2 ((hcond2 t).mp h))
        (win0_0.fill (grid0.coords t) d0 (xblk m c t)) (wblk m c t) _)
      isplitl [H0]; · iexact H0
      isplitl [H1]; · iexact H1
      isplitl [HS]; · iexact HS
      iintro ⟨H0, H1, HS⟩
      isplitl [HS Hg]
      · isplitl [HS]
        · iexists _; isplitr
          · ipureintro
            rw [accAt_first m c t h0]
            exact pay2_agree (wblk m c t) (AgreeCols.rfl' _ _) (fill_agree m c t d0)
          iexact HS
        iexact Hg
      isplitl [Ho]; · iexact Ho
      isplitl [H0]; · iexists d0; iexact H0
      isplitl [H1]; · iexact H1
      isplitl [H2]; · iexact H2
      iexact H3
    · rw [PhiS_pos m c _ _ hz]
      iintro ⟨⟨⟨%S, -, HS⟩, Hg⟩, Ho, ⟨%d0, H0⟩, ⟨%d1, H1⟩, ⟨%d2, H2⟩, H3⟩
      iapply (body_first (F := Ideal) c Set.univ (grid0.coords t) _ _ _ _ _ _ _ _ _ _ ((hcond1 t).mpr h0) (fun h => h2 ((hcond2 t).mp h))
        (win0_0.fill (grid0.coords t) d0 (xblk m c t)) (wblk m c t) _)
      isplitl [H0]; · iexact H0
      isplitl [H1]; · iexact H1
      isplitl [HS]; · iexists _; iexact HS
      iintro ⟨H0, H1, HS⟩
      isplitl [HS Hg]
      · isplitl [HS]
        · iexists _; isplitr
          · ipureintro
            rw [accAt_first m c t h0]
            exact pay2_agree (wblk m c t) (AgreeCols.rfl' _ _) (fill_agree m c t d0)
          iexact HS
        iexact Hg
      isplitl [Ho]; · iexact Ho
      isplitl [H0]; · iexists d0; iexact H0
      isplitl [H1]; · iexact H1
      isplitl [H2]; · iexact H2
      iexact H3
  · have hz : t.val ≠ 0 := fun e => h0 (by rw [e])
    rw [PhiS_pos m c _ _ hz]
    by_cases h2 : t.val % 3 = 2
    · -- a last point: the scratch gains the product, and the output block is stored
      rw [leaves3_live m c t h2, after0_3]
      iintro ⟨⟨⟨%S, %hS, HS⟩, Hg⟩, Ho, ⟨%d0, H0⟩, ⟨%d1, H1⟩, ⟨%d2, H2⟩, ⟨%d3, H3⟩⟩
      have hS' : AgreeCols (vcols t.val) S (accAt m c (t.val - 1) (by omega)) := by rw [← vcols_prev t.val h0]; exact hS
      have hA : AgreeCols (vcols t.val) (k0_pay2 S (wblk m c t) (win0_0.fill (grid0.coords t) d0 (xblk m c t))) (accAt m c t.val t.isLt) := by
        rw [accAt_next m c t h0]; exact pay2_agree (wblk m c t) hS' (fill_agree m c t d0)
      iapply (body_last (F := Ideal) c Set.univ (grid0.coords t) _ _ _ _ _ _ _ _ _ _ (fun h => h0 ((hcond1 t).mp h)) ((hcond2 t).mpr h2)
        (win0_0.fill (grid0.coords t) d0 (xblk m c t)) (wblk m c t) (bblk m c t) S _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]
        · iexists _; isplitr
          · ipureintro; exact hA
          iexact HS
        iexact Hg
      isplitl [Ho]; · iexact Ho
      isplitl [H0]; · iexists d0; iexact H0
      isplitl [H1]; · iexact H1
      isplitl [H2]; · iexact H2
      iapply (owns_fill_of_cut_eq c t _ _ (cut_pay3 c t _ _ (bblk m c t) hA))
      iexact H3
    · -- a middle point: the scratch gains the product
      rw [leaves3_idle m c t h2]
      iintro ⟨⟨⟨%S, %hS, HS⟩, Hg⟩, Ho, ⟨%d0, H0⟩, ⟨%d1, H1⟩, ⟨%d2, H2⟩, H3⟩
      have hS' : AgreeCols (vcols t.val) S (accAt m c (t.val - 1) (by omega)) := by rw [← vcols_prev t.val h0]; exact hS
      have hA : AgreeCols (vcols t.val) (k0_pay2 S (wblk m c t) (win0_0.fill (grid0.coords t) d0 (xblk m c t))) (accAt m c t.val t.isLt) := by
        rw [accAt_next m c t h0]; exact pay2_agree (wblk m c t) hS' (fill_agree m c t d0)
      iapply (body_mid (F := Ideal) c Set.univ (grid0.coords t) _ _ _ _ _ _ _ _ _ _ (fun h => h0 ((hcond1 t).mp h)) (fun h => h2 ((hcond2 t).mp h))
        (win0_0.fill (grid0.coords t) d0 (xblk m c t)) (wblk m c t) S _)
      isplitl [H0]; · iexact H0
      isplitl [H1]; · iexact H1
      isplitl [HS]; · iexact HS
      iintro ⟨H0, H1, HS⟩
      isplitl [HS Hg]
      · isplitl [HS]
        · iexists _; isplitr
          · ipureintro; exact hA
          iexact HS
        iexact Hg
      isplitl [Ho]; · iexact Ho
      isplitl [H0]; · iexists d0; iexact H0
      isplitl [H1]; · iexact H1
      isplitl [H2]; · iexact H2
      iexact H3

/-- The library's body obligation (in its loose form: the two clipped windows are stated on the moved lanes). -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 144 := N_0; omega), PhiA_eq]
  iintro ⟨⟨%S, -, HS⟩, Hg⟩
  isplitl [HS]
  · iexists _; iexact HS
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The reference's frame: it runs, and its arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Hand

end
-- ==== Proof.RefBlocks.lean ====
/-
  The reference's blocks read at coordinates.  Grid point `t = 3·q + k` (`q = t / 3` the (batch, lane block)
  pair, `k = t % 3` the channel block): the weight block holds channels `512·k … 512·k + 511` of every output
  channel; the signal block holds batch `q / 6 = t / 18`, the same channels, lanes `384·(q % 6) …`, of which the
  first `vcols t` lie inside the array; the bias block is the whole bias column.  The weight and the bias reach the
  region through host reshapes that only drop or add a unit axis.
-/
import proofs.«164156_g2000604510244575_pallasbulk_476_2_alg».proof.Proof.RefData
import Idealize.ShloMosaic.Lib.ValueLayout
import Idealize.ShloMosaic.Lib.StableHlo.Run

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays as the region finds them, and the block indices over the grid -/

/-- The weight as the region finds it: the argument `[1024, 1536, 1]` with its trailing unit axis dropped. -/
theorem V_main_v0 (c : Dev nD) : (V m c main_v0 : S1024x1536.Idx → EReal)
    = shapeCast S1024x1536 (m ((c.tc : Thread nD τ).loc main_arg1)) shapeCasts_S1024x1536x1_S1024x1536 := by
  dsimp only [Gen.V, Gen.hostOps0]; after_results; rfl

/-- The bias as the region finds it: the argument `[1024]` as a column `[1024, 1]`. -/
theorem V_main_v1 (c : Dev nD) : (V m c main_v1 : S1024x1.Idx → EReal)
    = shapeCast S1024x1 (m ((c.tc : Thread nD τ).loc main_arg2)) shapeCasts_S1024_S1024x1 := by
  dsimp only [Gen.V, Gen.hostOps0]; after_results; rfl

/-- The signal's block index at point `t`: batch `t / 18`, channel block `t % 3`, lane block `(t / 3) % 6`. -/
theorem index0 : ∀ t : Fin cfg0.N, win0_0.index t (0 : Fin 3) = t.val / 18 ∧ win0_0.index t (1 : Fin 3) = t.val % 3
    ∧ win0_0.index t (2 : Fin 3) = (t.val / 3) % 6 :=
  (by decide +kernel : ∀ t : Fin grid0.N, win0_0.index t (0 : Fin 3) = t.val / 18 ∧ win0_0.index t (1 : Fin 3) = t.val % 3
    ∧ win0_0.index t (2 : Fin 3) = (t.val / 3) % 6)

/-- The weight's block index at point `t`: every output channel, channel block `t % 3`. -/
theorem index1 : ∀ t : Fin cfg0.N, win0_1.index t (0 : Fin 2) = 0 ∧ win0_1.index t (1 : Fin 2) = t.val % 3 :=
  (by decide +kernel : ∀ t : Fin grid0.N, win0_1.index t (0 : Fin 2) = 0 ∧ win0_1.index t (1 : Fin 2) = t.val % 3)

/-- The bias's one block. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The weight block at `(o, j)` is the weight at output channel `o`, input channel `512·(t % 3) + j`. -/
theorem wblk_apply (c : Dev nD) (t : Fin cfg0.N) (o : Fin 1024) (j : Fin 512) (ch : Fin 1536)
    (hch : ch.val = (t.val % 3) * 512 + j.val) :
    wblk m c t (ix2 o j) = m ((c.tc : Thread nD τ).loc main_arg1) (ix3 o ch (0 : Fin 1)) := by
  obtain ⟨e0, e1⟩ := index1 t
  have hj := j.isLt
  show V m c main_v0 (((cfg0.win 1).blk t).view.emb (ix2 o j)) = _
  -- the block's element (o, j) sits in the array at (0·1024 + o, (t % 3)·512 + j)
  have hi : ((cfg0.win 1).blk t).view.emb (ix2 o j) = (ix2 o ch : S1024x1536.Idx) := by
    funext a; apply Fin.ext
    match a with
    | ⟨0, _⟩ => show win0_1.index t (0 : Fin 2) * 1024 + 1 * o.val = o.val; omega
    | ⟨1, _⟩ => show win0_1.index t (1 : Fin 2) * 512 + 1 * j.val = ch.val; omega
  rw [hi, V_main_v0]
  -- dropping the trailing unit axis keeps the row-major position
  refine shapeCast_apply _ _ _ (ix3 o ch (0 : Fin 1)) ?_
  rw [Shape.rowMajor_val_three, Shape.rowMajor_val_two]
  show (o.val * 1536 + ch.val) * 1 + 0 = o.val * 1536 + ch.val
  omega

/-- The bias block at `(o, 0)` is the bias at `o`. -/
theorem bblk_apply (c : Dev nD) (t : Fin cfg0.N) (o : Fin 1024) :
    bblk m c t (ix2 o (0 : Fin 1)) = m ((c.tc : Thread nD τ).loc main_arg2) (ix1 o) := by
  obtain ⟨e0, e1⟩ := index2 t
  show V m c main_v1 (((cfg0.win 2).blk t).view.emb (ix2 o (0 : Fin 1))) = _
  have hi : ((cfg0.win 2).blk t).view.emb (ix2 o (0 : Fin 1)) = (ix2 o (0 : Fin 1) : S1024x1.Idx) := by
    funext a; apply Fin.ext
    match a with
    | ⟨0, _⟩ => show win0_2.index t (0 : Fin 2) * 1024 + 1 * o.val = o.val; omega
    | ⟨1, _⟩ => show win0_2.index t (1 : Fin 2) * 1 + 1 * 0 = 0; omega
  rw [hi, V_main_v1]
  -- adding the trailing unit axis keeps the row-major position
  refine shapeCast_apply _ _ _ (ix1 o) ?_
  rw [Shape.rowMajor_val_one, Shape.rowMajor_val_two]
  show o.val = o.val * 1 + 0
  omega

/-- The zero-filled signal block at `(0, j, l)`, for a lane `l` the fetch moved, is the signal at batch `t / 18`,
    channel `512·(t % 3) + j`, lane `384·((t / 3) % 6) + l`. -/
theorem xfill_apply (c : Dev nD) (t : Fin cfg0.N) (j : Fin 512) (l : Fin 384) (hl : l.val < vcols t.val)
    (n : Fin 8) (ch : Fin 1536) (ll : Fin 2048) (hn : n.val = t.val / 18) (hch : ch.val = (t.val % 3) * 512 + j.val)
    (hll : ll.val = ((t.val / 3) % 6) * 384 + l.val) :
    xfill m c t (ix3 (0 : Fin 1) j l) = m ((c.tc : Thread nD τ).loc main_arg0) (ix3 n ch ll) := by
  have hx := xsize0 t
  obtain ⟨e0, e1, e2⟩ := index0 t
  -- the index (0, j, l) lies in the part of the block the fetch moved
  have hmv : win0_0.moved (grid0.coords t) (ix3 (0 : Fin 1) j l) = true := by
    rw [Window.moved_iff]
    intro a
    match a with
    | ⟨0, _⟩ => show (0 : Nat) < win0_0.xsize (grid0.coords t) 0; rw [hx.1]; exact Nat.one_pos
    | ⟨1, _⟩ => show j.val < win0_0.xsize (grid0.coords t) 1; rw [hx.2.1]; exact j.isLt
    | ⟨2, _⟩ => show l.val < win0_0.xsize (grid0.coords t) 2; rw [hx.2.2]; exact hl
  unfold xfill Window.fill
  rw [dif_pos hmv]
  show V m c main_arg0 (((cfg0.win 0).blk t).view.emb _) = _
  rw [V_main_arg0]
  -- the block's element (0, j, l) sits in the array at ((t / 18)·1 + 0, (t % 3)·512 + j, ((t / 3) % 6)·384 + l)
  refine congrArg (m ((c.tc : Thread nD τ).loc main_arg0)) ?_
  funext a; apply Fin.ext
  match a with
  | ⟨0, _⟩ => show win0_0.index t (0 : Fin 3) * 1 + 1 * 0 = n.val; omega
  | ⟨1, _⟩ => show win0_0.index t (1 : Fin 3) * 512 + 1 * j.val = ch.val; omega
  | ⟨2, _⟩ => show win0_0.index t (2 : Fin 3) * 384 + 1 * l.val = ll.val; omega

end Cert.ReferenceIdeal.Hand

end
-- ==== Proof.SumBlocks.lean ====
/-
  A sum over 1536 consecutive positions, cut into its three blocks of 512: the positions
  0 … 511, 512 … 1023 and 1024 … 1535. Pure finite-sum algebra over any commutative monoid.
-/
import Mathlib.Algebra.BigOperators.Fin

open scoped BigOperators

namespace Cert.Conv

/-- A sum over `(a + b) + c` positions is the sum over the first `a`, plus the sum over the next `b`,
    plus the sum over the last `c`: `Fin.sum_univ_add` twice. -/
theorem sum_three {M : Type*} [AddCommMonoid M] (a b c : ℕ) (g : Fin (a + b + c) → M) :
    ∑ i, g i = ((∑ j : Fin a, g (Fin.castAdd c (Fin.castAdd b j)))
      + ∑ j : Fin b, g (Fin.castAdd c (Fin.natAdd a j))) + ∑ j : Fin c, g (Fin.natAdd (a + b) j) := by
  rw [Fin.sum_univ_add, Fin.sum_univ_add]

/-- The sum over 1536 = 512 + 512 + 512 positions is the sum of its three blocks of 512: block `t`
    holds the positions `512 * t + j`, `j < 512`. -/
theorem sum_blocks3 {M : Type*} [AddCommMonoid M] (f : Fin 1536 → M) :
    ∑ c : Fin 1536, f c = ((∑ j : Fin 512, f ⟨j.val, by omega⟩) + ∑ j : Fin 512, f ⟨512 + j.val, by omega⟩)
      + ∑ j : Fin 512, f ⟨1024 + j.val, by omega⟩ :=
  sum_three 512 512 512 f

end Cert.Conv
-- ==== Proof.RefValue.lean ====
/-
  The reference's result array is the convolution `Cert.Conv.conv` of its three arguments: the three partial
  products its scratch accumulates over a run of three grid points are the three blocks of 512 of the sum over the
  1536 channels; the zero the accumulation starts from is the sum's neutral element; the lanes past the arrays' end
  are never written back.
-/
import proofs.«164156_g2000604510244575_pallasbulk_476_2_alg».proof.Proof.RefBlocks
import proofs.«164156_g2000604510244575_pallasbulk_476_2_alg».proof.Proof.RefPayload
import proofs.«164156_g2000604510244575_pallasbulk_476_2_alg».proof.Proof.ConvSpec
import proofs.«164156_g2000604510244575_pallasbulk_476_2_alg».proof.Proof.SumBlocks

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## One run of three points at one output index

The accumulator starts at zero and gains, at the run's point k = 0, 1, 2, the product of the weight's channel block k
(channels 512 k … 512 k + 511) with the signal's channel block k; the last point adds the bias.  At output channel o
and lane l this is  (((0 + S₀) + S₁) + S₂) + b[o]  with  S_k = ∑ j < 512, w[o, 512 k + j, 0] · x[n, 512 k + j, l']:
the three blocks of 512 of the sum over the 1536 channels, so the convolution at (n, o, l'). -/

theorem channel_blocks_conv
    (x : S8x1536x2048.Idx → EReal) (w : S1024x1536x1.Idx → EReal) (b : S1024.Idx → EReal)
    (W0 W1 W2 : Vec Ideal S1024x512 .f32) (X0 X1 X2 : Vec Ideal S1x512x384 .f32) (B : Vec Ideal S1024x1 .f32)
    (n : Fin 8) (o : Fin 1024) (l : Fin 384) (ll : Fin 2048)
    (hW0 : ∀ j : Fin 512, W0 (ix2 o j) = w (ix3 o (⟨j.val, by omega⟩ : Fin 1536) (0 : Fin 1)))
    (hW1 : ∀ j : Fin 512, W1 (ix2 o j) = w (ix3 o (⟨512 + j.val, by omega⟩ : Fin 1536) (0 : Fin 1)))
    (hW2 : ∀ j : Fin 512, W2 (ix2 o j) = w (ix3 o (⟨1024 + j.val, by omega⟩ : Fin 1536) (0 : Fin 1)))
    (hX0 : ∀ j : Fin 512, X0 (ix3 (0 : Fin 1) j l) = x (ix3 n (⟨j.val, by omega⟩ : Fin 1536) ll))
    (hX1 : ∀ j : Fin 512, X1 (ix3 (0 : Fin 1) j l) = x (ix3 n (⟨512 + j.val, by omega⟩ : Fin 1536) ll))
    (hX2 : ∀ j : Fin 512, X2 (ix3 (0 : Fin 1) j l) = x (ix3 n (⟨1024 + j.val, by omega⟩ : Fin 1536) ll))
    (hB : B (ix2 o (0 : Fin 1)) = b (ix1 o)) :
    k0_pay3 (k0_pay2 (k0_pay2 (k0_pay2 (k0_pay1 (F := Ideal)) W0 X0) W1 X1) W2 X2) B (ix3 (0 : Fin 1) o l)
      = Cert.Conv.conv x w b (ix3 n o ll) := by
  rw [pay3_apply, pay2_apply, pay2_apply, pay2_apply, pay1_apply, zero_add, Cert.Conv.conv_apply,
    Cert.Conv.sum_blocks3 (fun cc : Fin 1536 => w (ix3 o cc (0 : Fin 1)) * x (ix3 n cc ll)), hB]
  refine congrArg (· + b (ix1 o)) ?_
  refine congrArg₂ (· + ·) (congrArg₂ (· + ·) ?_ ?_) ?_
  · exact Finset.sum_congr rfl fun j _ => by rw [hW0 j, hX0 j]
  · exact Finset.sum_congr rfl fun j _ => by rw [hW1 j, hX1 j]
  · exact Finset.sum_congr rfl fun j _ => by rw [hW2 j, hX2 j]

/-! ## The accumulator after the last point of a run -/

/-- The accumulator does not depend on how its point is written. -/
theorem accAt_congr (c : Dev nD) {a a' : ℕ} (h : a = a') (ha : a < cfg0.N) (ha' : a' < cfg0.N) :
    accAt m c a ha = accAt m c a' ha' := by subst h; rfl

/-- After the last point `t2` of a run, the accumulator is the zero plus the three points' products, in order. -/
theorem acc_run (c : Dev nD) (t2 t1 t0 : Fin cfg0.N) (h2 : t2.val % 3 = 2) (h1 : t1.val = t2.val - 1) (h0 : t0.val = t2.val - 2) :
    accAt m c t2.val t2.isLt
      = k0_pay2 (k0_pay2 (k0_pay2 (k0_pay1 (F := Ideal)) (wblk m c t0) (xfill m c t0)) (wblk m c t1) (xfill m c t1))
          (wblk m c t2) (xfill m c t2) := by
  have e2 := accAt_next m c t2 (by omega)
  have e1 := accAt_next m c t1 (by omega)
  have e0 := accAt_first m c t0 (by omega)
  rw [e2, accAt_congr m c h1.symm _ t1.isLt, e1, accAt_congr m c (show t1.val - 1 = t0.val by omega) _ t0.isLt, e0]

/-! ## The output's blocks over the grid -/

/-- Point t's output block is batch t / 18, all 1024 channels, lane block (t / 3) % 6. -/
theorem result_block_index : ∀ t : Fin cfg0.N, win0_3.index t (0 : Fin 3) = t.val / 18 ∧ win0_3.index t (1 : Fin 3) = 0
    ∧ win0_3.index t (2 : Fin 3) = (t.val / 3) % 6 :=
  (by decide +kernel : ∀ t : Fin grid0.N, win0_3.index t (0 : Fin 3) = t.val / 18 ∧ win0_3.index t (1 : Fin 3) = 0
    ∧ win0_3.index t (2 : Fin 3) = (t.val / 3) % 6)

/-- A moved lane of point t's block is a lane of the block, and lands inside the 2048 lanes. -/
theorem moved_lane_inside (t l : Nat) (hl : l < vcols t) : l < 384 ∧ ((t / 3) % 6) * 384 + l < 2048 := by
  unfold vcols at hl
  split_ifs at hl <;> omega

/-- The points of one run move the same lanes. -/
theorem vcols_of_run {s t : Nat} (h : s / 3 = t / 3) : vcols s = vcols t := by
  unfold vcols; rw [h]

/-- Index (n, ·, l) of the result lies in the block written back at point 3 · (6 n + l / 384) + 2: that point's batch
    is n, its lane block is l / 384, and l is among the lanes it moves. -/
theorem result_block_point (n l : Nat) (hn : n < 8) (hl : l < 2048) :
    3 * (6 * n + l / 384) + 2 < 144 ∧ (3 * (6 * n + l / 384) + 2) % 3 = 2 ∧ (3 * (6 * n + l / 384) + 2) / 18 = n
      ∧ ((3 * (6 * n + l / 384) + 2) / 3) % 6 = l / 384 ∧ l < (l / 384) * 384 + vcols (3 * (6 * n + l / 384) + 2) := by
  have e3 : (3 * (6 * n + l / 384) + 2) / 3 = 6 * n + l / 384 := by omega
  have h5 : l / 384 ≤ 5 := by omega
  refine ⟨by omega, by omega, by omega, by omega, ?_⟩
  unfold vcols
  rw [e3]
  split_ifs <;> omega

/-! ## What a flushing point writes back -/

/-- The last point of a run writes back its block of the convolution of the three arguments. -/
theorem block_written (c : Dev nD) (t : Fin cfg0.N) (h2 : t.val % 3 = 2) :
    (dats m 0 c).flushed 3 t = ((cfg0.win 3).blk t).view.read (Elt Ideal)
      (Cert.Conv.conv (m ((c.tc : Thread nD τ).loc main_arg0)) (m ((c.tc : Thread nD τ).loc main_arg1)) (m ((c.tc : Thread nD τ).loc main_arg2))) := by
  have hN : cfg0.N = 144 := N_0
  have ht : t.val < 144 := lt_of_lt_of_eq t.isLt hN
  obtain ⟨xs0, xs1, xs2⟩ := xsize3 t
  obtain ⟨i0, i1, i2⟩ := result_block_index t
  funext y
  have y0 : (y 0).val < 1 := by have := (y 0).isLt; rw [← xs0]; exact this
  have y1 : (y 1).val < 1024 := by have := (y 1).isLt; rw [← xs1]; exact this
  have y2 : (y 2).val < vcols t.val := by have := (y 2).isLt; rw [← xs2]; exact this
  obtain ⟨y2', yin⟩ := moved_lane_inside t.val (y 2).val y2
  show (dats m 0 c).after 3 t (win0_3.xinj (grid0.coords t) y) = _
  rw [after0_3, View.read_apply]
  -- the run's three points
  have p1 : t.val - 1 < cfg0.N := by omega
  have p0 : t.val - 2 < cfg0.N := by omega
  rw [acc_run m c t ⟨t.val - 1, p1⟩ ⟨t.val - 2, p0⟩ h2 rfl rfl]
  -- the block's index and the array's index by coordinates
  have hy : win0_3.xinj (grid0.coords t) y = ix3 (0 : Fin 1) (⟨(y 1).val, y1⟩ : Fin 1024) (⟨(y 2).val, y2'⟩ : Fin 384) := by
    funext a; apply Fin.ext
    match a with
    | ⟨0, _⟩ => show (y 0).val = 0; omega
    | ⟨1, _⟩ => rfl
    | ⟨2, _⟩ => rfl
  have he : ((cfg0.win 3).blk t).view.emb y
      = ix3 (⟨t.val / 18, by omega⟩ : Fin 8) (⟨(y 1).val, y1⟩ : Fin 1024) (⟨((t.val / 3) % 6) * 384 + (y 2).val, yin⟩ : Fin 2048) := by
    funext a; apply Fin.ext
    match a with
    | ⟨0, _⟩ => show win0_3.index t (0 : Fin 3) * 1 + 1 * (y 0).val = t.val / 18; omega
    | ⟨1, _⟩ => show win0_3.index t (1 : Fin 3) * 1024 + 1 * (y 1).val = (y 1).val; omega
    | ⟨2, _⟩ => show win0_3.index t (2 : Fin 3) * 384 + 1 * (y 2).val = ((t.val / 3) % 6) * 384 + (y 2).val; omega
  rw [hy, he]
  have v1 : vcols (t.val - 1) = vcols t.val := vcols_of_run (by omega)
  have v0 : vcols (t.val - 2) = vcols t.val := vcols_of_run (by omega)
  refine channel_blocks_conv _ _ _ _ _ _ _ _ _ _ _ _ _ _
    (fun j => wblk_apply m c ⟨t.val - 2, p0⟩ _ j _ (by show j.val = ((t.val - 2) % 3) * 512 + j.val; omega))
    (fun j => wblk_apply m c ⟨t.val - 1, p1⟩ _ j _ (by show 512 + j.val = ((t.val - 1) % 3) * 512 + j.val; omega))
    (fun j => wblk_apply m c t _ j _ (by show 1024 + j.val = (t.val % 3) * 512 + j.val; omega))
    (fun j => xfill_apply m c ⟨t.val - 2, p0⟩ j _ (by show (y 2).val < vcols (t.val - 2); rw [v0]; exact y2) _ _ _
      (by show t.val / 18 = (t.val - 2) / 18; omega) (by show j.val = ((t.val - 2) % 3) * 512 + j.val; omega)
      (by show ((t.val / 3) % 6) * 384 + (y 2).val = (((t.val - 2) / 3) % 6) * 384 + (y 2).val; have : (t.val - 2) / 3 = t.val / 3 := by omega
          rw [this]))
    (fun j => xfill_apply m c ⟨t.val - 1, p1⟩ j _ (by show (y 2).val < vcols (t.val - 1); rw [v1]; exact y2) _ _ _
      (by show t.val / 18 = (t.val - 1) / 18; omega) (by show 512 + j.val = ((t.val - 1) % 3) * 512 + j.val; omega)
      (by show ((t.val / 3) % 6) * 384 + (y 2).val = (((t.val - 1) / 3) % 6) * 384 + (y 2).val; have : (t.val - 1) / 3 = t.val / 3 := by omega
          rw [this]))
    (fun j => xfill_apply m c t j _ y2 _ _ _ rfl (by show 1024 + j.val = (t.val % 3) * 512 + j.val; omega) rfl)
    (bblk_apply m c t _)

/-! ## The written blocks tile the result -/

/-- An index of the result is in point t's block iff each coordinate is in the block's moved range on its axis. -/
theorem result_mem_block (t : Fin cfg0.N) (i : S8x1024x2048.Idx) :
    i ∈ ((cfg0.win 3).blk t).view.set
      ↔ ∀ a : Fin 3, win0_3.index t a * S1x1024x384.size a ≤ (i a).val
          ∧ (i a).val < win0_3.index t a * S1x1024x384.size a + win0_3.xsize (grid0.coords t) a := by
  show i ∈ ((View.whole main_v2).slice (win0_3.rect t)).set ↔ _
  rw [View.set_slice_whole, Rect.mem_set_unit]
  exact Iff.rfl

/-- Every index (n, o, l) of the result lies in the block some flushing point writes back. -/
theorem result_covered (i : S8x1024x2048.Idx) :
    ∃ t : Fin cfg0.N, (cfg0.win 3).flush t = true ∧ i ∈ ((cfg0.win 3).blk t).view.set := by
  have hN : cfg0.N = 144 := N_0
  have hi0 : (i 0).val < 8 := (i 0).isLt
  have hi1 : (i 1).val < 1024 := (i 1).isLt
  have hi2 : (i 2).val < 2048 := (i 2).isLt
  obtain ⟨b0, b1, b2, b3, b4⟩ := result_block_point (i 0).val (i 2).val hi0 hi2
  refine ⟨⟨3 * (6 * (i 0).val + (i 2).val / 384) + 2, by omega⟩, (flush0_3 _).mpr b1, ?_⟩
  obtain ⟨xs0, xs1, xs2⟩ := xsize3 ⟨3 * (6 * (i 0).val + (i 2).val / 384) + 2, by omega⟩
  obtain ⟨i0, i1, i2⟩ := result_block_index ⟨3 * (6 * (i 0).val + (i 2).val / 384) + 2, by omega⟩
  rw [result_mem_block]
  intro a
  match a with
  | ⟨0, _⟩ =>
    show win0_3.index _ (0 : Fin 3) * 1 ≤ (i 0).val ∧ (i 0).val < win0_3.index _ (0 : Fin 3) * 1 + win0_3.xsize _ 0
    rw [xs0, i0]; show _ / 18 * 1 ≤ _ ∧ _ < _ / 18 * 1 + 1; rw [b2]; omega
  | ⟨1, _⟩ =>
    show win0_3.index _ (1 : Fin 3) * 1024 ≤ (i 1).val ∧ (i 1).val < win0_3.index _ (1 : Fin 3) * 1024 + win0_3.xsize _ 1
    rw [xs1, i1]; omega
  | ⟨2, _⟩ =>
    show win0_3.index _ (2 : Fin 3) * 384 ≤ (i 2).val ∧ (i 2).val < win0_3.index _ (2 : Fin 3) * 384 + win0_3.xsize _ 2
    rw [xs2, i2]; show _ / 3 % 6 * 384 ≤ _ ∧ _ < _ / 3 % 6 * 384 + vcols _; rw [b3]; exact ⟨by omega, b4⟩

/-- The reference's output array after the run is the convolution of the arguments. -/
theorem result_array (c : Dev nD) : (dats m 0 c).arrAt 3 cfg0.N
    = Cert.Conv.conv (m ((c.tc : Thread nD τ).loc main_arg0)) (m ((c.tc : Thread nD τ).loc main_arg1)) (m ((c.tc : Thread nD τ).loc main_arg2)) :=
  (dats m 0 c).arrAt_eq_of_cover 3 _ (fun t hf => block_written m c t ((flush0_3 t).mp hf)) result_covered

/-- The reference's run: it terminates with the result array at the convolution of the arguments, which are
    unchanged. -/
theorem run : θ_run (defs (F := Ideal)) (onTc (τ := τ) (main (F := Ideal))) ⟨m, fun _ => 0, ρ⟩ (fun r => ∀ c : Dev nD,
      r.2.mem ((c.tc : Thread nD τ).loc main_v2)
        = Cert.Conv.conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (result_array m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceIdeal.Hand

end
-- ==== Proof.lean ====
/-
  A pointwise (kernel size one) 1-D convolution with bias,  y[n, o, l] = (∑ c, w[o, c, 0] · x[n, c, l]) + b[o],
  x : [8, 1536, 2048], w : [1024, 1536, 1], b : [1024], in two Pallas programs.

  The kernel keeps the whole [1024, 1536] weight resident, casts both matrix operands to bf16 and takes ONE
  product per grid point over all 1536 channels, 32 points of 512 lanes. The reference tiles the channel axis in
  three blocks of 512, accumulating three partial products in a [1024, 384] scratch over a run of three grid
  points (zeroed at the first, bias added and stored at the last), 48 · 3 points of 384 lanes, the sixth lane
  block of each row overhanging the arrays.

  On the extended reals a change of float format is the identity and a matrix product into the zero accumulator is
  the plain sum, so both end at the same array `Cert.Conv.conv`: the kernel directly (`Cert.KernelIdeal.Hand.run`),
  the reference because the three partial sums are the three blocks of the sum over the channels and the starting
  zero is neutral (`Cert.ReferenceIdeal.Hand.run`); only commutativity and associativity of the sum are used, so the
  finiteness precondition is never opened. The lanes past the arrays' end hold unnamed words in the reference's
  staging buffers and scratch; the contraction does not run over the lane axis, so they stay in columns that are
  never written back (`AgreeCols`).
-/
import proofs.«164156_g2000604510244575_pallasbulk_476_2_alg».proof.Defs
import proofs.«164156_g2000604510244575_pallasbulk_476_2_alg».proof.Proof.Gen.Kernel
import proofs.«164156_g2000604510244575_pallasbulk_476_2_alg».proof.Proof.Gen.Kernel.Frame
import proofs.«164156_g2000604510244575_pallasbulk_476_2_alg».proof.Proof.Gen.KernelIdeal
import proofs.«164156_g2000604510244575_pallasbulk_476_2_alg».proof.Proof.Gen.KernelIdeal.Frame
import proofs.«164156_g2000604510244575_pallasbulk_476_2_alg».proof.Proof.Gen.ReferenceIdeal
import proofs.«164156_g2000604510244575_pallasbulk_476_2_alg».proof.Proof.Gen.Pre_finite_inputs
import proofs.«164156_g2000604510244575_pallasbulk_476_2_alg».proof.Proof.KernelValue
import proofs.«164156_g2000604510244575_pallasbulk_476_2_alg».proof.Proof.RefValue
import Idealize.ShloMosaic.Adequacy
import Idealize.ShloMosaic.Init

noncomputable section

namespace Cert.Proof

open Idealize.ShloMosaic Idealize.SL.Sem

/-- The word-level kernel's frame: generated whole. -/
theorem frame_k : Cert.frame_Kernel := fun m ρ _ => Cert.Kernel.Gen.frame m ρ
/-- The idealized kernel's frame: generated whole. -/
theorem frame_ki : Cert.frame_KernelIdeal := fun m ρ _ => Cert.KernelIdeal.Gen.frame m ρ
/-- The idealized reference's frame: its accumulating body run case by case under the pipeline's launch. -/
theorem frame_ri : Cert.frame_ReferenceIdeal := fun m ρ _ => Cert.ReferenceIdeal.Hand.frame m ρ

/-- Both idealized programs end at the convolution of the arguments they agree on. -/
theorem algebraic : Cert.algebraic_KernelIdeal_ReferenceIdeal := by
  intro m ρ m' ρ' _ hagree
  refine ⟨fun c => Cert.Conv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨?_, (h c).2⟩) (Cert.ReferenceIdeal.Hand.run m' ρ')
  rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
